-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2048 : Shape := ⟨2, ![65536, 2048]⟩
abbrev S1000x2048 : Shape := ⟨2, ![1000, 2048]⟩
abbrev S65536 : Shape := ⟨1, ![65536]⟩
abbrev S_ : Shape := ⟨0, ![]⟩

class Facts : Prop where
  bcast_S_S65536x2048 : S_.BroadcastsInDim S65536x2048 (![] : Fin 0 → Fin S65536x2048.rank)
  reducesTo_S65536x2048_S_d0_1 : S65536x2048.ReducesTo [0, 1] S_
  h_S_ : 0 < S_.numel
  bcast_S_S1000x2048 : S_.BroadcastsInDim S1000x2048 (![] : Fin 0 → Fin S1000x2048.rank)
  reducesTo_S1000x2048_S_d0_1 : S1000x2048.ReducesTo [0, 1] S_

variable [Facts]

def fn_part1 {F : FTy → Type} [FloatOps F] (main_v13 : IVec S_ 1) (main_v16 : IVec S1000x2048 1) : IVec S_ 1 :=
  let main_c_5 : IVec S_ 1 := constantI S_ 1 1#1
  let main_v17 : IVec S_ 1 := (fun x v => Host.reduce IntOp.andi x v reducesTo_S1000x2048_S_d0_1 h_S_) main_v16 main_c_5
  let main_v18 : IVec S_ 1 := andi main_v13 main_v17
  main_v18

def fn {F : FTy → Type} [FloatOps F] (main_arg0 : FVec F S65536x2048 .f32) (main_arg1 : FVec F S65536x2048 .f32) (main_arg2 : FVec F S1000x2048 .f32) (main_arg3 : FVec F S1000x2048 .f32) (main_arg4 : IVec S65536 32) (main_arg5 : IVec S65536 32) : IVec S_ 1 :=
  let main_v0 : FVec F S65536x2048 .f32 := Host.absf main_arg0
  let main_cst : FVec F S_ .f32 := constant S_ .f32 0x7F800000#32
  let main_v1 : FVec F S65536x2048 .f32 := broadcastInDim S65536x2048 ![] bcast_S_S65536x2048 main_cst
  let main_v2 : IVec S65536x2048 1 := cmpf .olt main_v0 main_v1
  let main_c : IVec S_ 1 := constantI S_ 1 1#1
  let main_v3 : IVec S_ 1 := (fun x v => Host.reduce IntOp.andi x v reducesTo_S65536x2048_S_d0_1 h_S_) main_v2 main_c
  let main_v4 : FVec F S65536x2048 .f32 := Host.absf main_arg1
  let main_cst_0 : FVec F S_ .f32 := constant S_ .f32 0x7F800000#32
  let main_v5 : FVec F S65536x2048 .f32 := broadcastInDim S65536x2048 ![] bcast_S_S65536x2048 main_cst_0
  let main_v6 : IVec S65536x2048 1 := cmpf .olt main_v4 main_v5
  let main_c_1 : IVec S_ 1 := constantI S_ 1 1#1
  let main_v7 : IVec S_ 1 := (fun x v => Host.reduce IntOp.andi x v reducesTo_S65536x2048_S_d0_1 h_S_) main_v6 main_c_1
  let main_v8 : IVec S_ 1 := andi main_v3 main_v7
  let main_v9 : FVec F S1000x2048 .f32 := Host.absf main_arg2
  let main_cst_2 : FVec F S_ .f32 := constant S_ .f32 0x7F800000#32
  let main_v10 : FVec F S1000x2048 .f32 := broadcastInDim S1000x2048 ![] bcast_S_S1000x2048 main_cst_2
  let main_v11 : IVec S1000x2048 1 := cmpf .olt main_v9 main_v10
  let main_c_3 : IVec S_ 1 := constantI S_ 1 1#1
  let main_v12 : IVec S_ 1 := (fun x v => Host.reduce IntOp.andi x v reducesTo_S1000x2048_S_d0_1 h_S_) main_v11 main_c_3
  let main_v13 : IVec S_ 1 := andi main_v8 main_v12
  let main_v14 : FVec F S1000x2048 .f32 := Host.absf main_arg3
  let main_cst_4 : FVec F S_ .f32 := constant S_ .f32 0x7F800000#32
  let main_v15 : FVec F S1000x2048 .f32 := broadcastInDim S1000x2048 ![] bcast_S_S1000x2048 main_cst_4
  let main_v16 : IVec S1000x2048 1 := cmpf .olt main_v14 main_v15
  fn_part1 (F := F) main_v13 main_v16
-- ==== Kernel.lean ====
abbrev S65536x2048 : Shape := ⟨2, ![65536, 2048]⟩
abbrev S1000x2048 : Shape := ⟨2, ![1000, 2048]⟩
abbrev S65536 : Shape := ⟨1, ![65536]⟩
abbrev S1x65536 : Shape := ⟨2, ![1, 65536]⟩
abbrev S2x1000x2048 : Shape := ⟨3, ![2, 1000, 2048]⟩
abbrev S512x2048 : Shape := ⟨2, ![512, 2048]⟩
abbrev S1x512 : Shape := ⟨2, ![1, 512]⟩
abbrev S1x1000x2048 : Shape := ⟨3, ![1, 1000, 2048]⟩
abbrev S1000x1 : Shape := ⟨2, ![1000, 1]⟩
abbrev S1000x512 : Shape := ⟨2, ![1000, 512]⟩
abbrev S_ : Shape := ⟨0, ![]⟩
abbrev S1000 : Shape := ⟨1, ![1000]⟩
abbrev S65536x1 : Shape := ⟨2, ![65536, 1]⟩

abbrev nBuf : Space → Nat
  | .hbm => 67
  | .vmem => 12
  | .smem => 0
  | _ => 0

abbrev bufTy : (tb : Table) → Fin (tcTables nBuf tb) → BufTy
  | .hbm, ⟨0, _⟩ => ⟨S65536x2048, .f32⟩
  | .hbm, ⟨1, _⟩ => ⟨S65536x2048, .f32⟩
  | .hbm, ⟨2, _⟩ => ⟨S1000x2048, .f32⟩
  | .hbm, ⟨3, _⟩ => ⟨S1000x2048, .f32⟩
  | .hbm, ⟨4, _⟩ => ⟨S65536, .i32⟩
  | .hbm, ⟨5, _⟩ => ⟨S65536, .i32⟩
  | .hbm, ⟨6, _⟩ => ⟨S1x65536, .i32⟩
  | .hbm, ⟨7, _⟩ => ⟨S2x1000x2048, .f32⟩
  | .hbm, ⟨8, _⟩ => ⟨S_, .f32⟩
  | .hbm, ⟨9, _⟩ => ⟨S1000x2048, .f32⟩
  | .hbm, ⟨10, _⟩ => ⟨S1x65536, .i32⟩
  | .hbm, ⟨11, _⟩ => ⟨S2x1000x2048, .f32⟩
  | .hbm, ⟨12, _⟩ => ⟨S_, .f32⟩
  | .hbm, ⟨13, _⟩ => ⟨S1000x2048, .f32⟩
  | .hbm, ⟨14, _⟩ => ⟨S_, .f32⟩
  | .hbm, ⟨15, _⟩ => ⟨S65536, .f32⟩
  | .hbm, ⟨16, _⟩ => ⟨S_, .f32⟩
  | .hbm, ⟨17, _⟩ => ⟨S1000, .f32⟩
  | .hbm, ⟨18, _⟩ => ⟨S65536x1, .i32⟩
  | .hbm, ⟨19, _⟩ => ⟨S1000, .f32⟩
  | .hbm, ⟨20, _⟩ => ⟨S_, .f32⟩
  | .hbm, ⟨21, _⟩ => ⟨S1000, .f32⟩
  | .hbm, ⟨22, _⟩ => ⟨S1000, .f32⟩
  | .hbm, ⟨23, _⟩ => ⟨S1000x1, .f32⟩
  | .hbm, ⟨24, _⟩ => ⟨S1000x2048, .f32⟩
  | .hbm, ⟨25, _⟩ => ⟨S1000x2048, .f32⟩
  | .hbm, ⟨26, _⟩ => ⟨S_, .f32⟩
  | .hbm, ⟨27, _⟩ => ⟨S1000, .f32⟩
  | .hbm, ⟨28, _⟩ => ⟨S1000, .i1⟩
  | .hbm, ⟨29, _⟩ => ⟨S1000x1, .i1⟩
  | .hbm, ⟨30, _⟩ => ⟨S_, .f32⟩
  | .hbm, ⟨31, _⟩ => ⟨S1000x2048, .f32⟩
  | .hbm, ⟨32, _⟩ => ⟨S1000x2048, .f32⟩
  | .hbm, ⟨33, _⟩ => ⟨S_, .f32⟩
  | .hbm, ⟨34, _⟩ => ⟨S1000x2048, .f32⟩
  | .hbm, ⟨35, _⟩ => ⟨S1000x2048, .f32⟩
  | .hbm, ⟨36, _⟩ => ⟨S1000x2048, .f32⟩
  | .hbm, ⟨37, _⟩ => ⟨S1000x2048, .i1⟩
  | .hbm, ⟨38, _⟩ => ⟨S1000x2048, .f32⟩
  | .hbm, ⟨39, _⟩ => ⟨S_, .f32⟩
  | .hbm, ⟨40, _⟩ => ⟨S65536, .f32⟩
  | .hbm, ⟨41, _⟩ => ⟨S_, .f32⟩
  | .hbm, ⟨42, _⟩ => ⟨S1000, .f32⟩
  | .hbm, ⟨43, _⟩ => ⟨S65536x1, .i32⟩
  | .hbm, ⟨44, _⟩ => ⟨S1000, .f32⟩
  | .hbm, ⟨45, _⟩ => ⟨S_, .f32⟩
  | .hbm, ⟨46, _⟩ => ⟨S1000, .f32⟩
  | .hbm, ⟨47, _⟩ => ⟨S1000, .f32⟩
  | .hbm, ⟨48, _⟩ => ⟨S1000x1, .f32⟩
  | .hbm, ⟨49, _⟩ => ⟨S1000x2048, .f32⟩
  | .hbm, ⟨50, _⟩ => ⟨S1000x2048, .f32⟩
  | .hbm, ⟨51, _⟩ => ⟨S_, .f32⟩
  | .hbm, ⟨52, _⟩ => ⟨S1000, .f32⟩
  | .hbm, ⟨53, _⟩ => ⟨S1000, .i1⟩
  | .hbm, ⟨54, _⟩ => ⟨S1000x1, .i1⟩
  | .hbm, ⟨55, _⟩ => ⟨S_, .f32⟩
  | .hbm, ⟨56, _⟩ => ⟨S1000x2048, .f32⟩
  | .hbm, ⟨57, _⟩ => ⟨S1000x2048, .f32⟩
  | .hbm, ⟨58, _⟩ => ⟨S_, .f32⟩
  | .hbm, ⟨59, _⟩ => ⟨S1000x2048, .f32⟩
  | .hbm, ⟨60, _⟩ => ⟨S1000x2048, .f32⟩
  | .hbm, ⟨61, _⟩ => ⟨S1000x2048, .f32⟩
  | .hbm, ⟨62, _⟩ => ⟨S1000x2048, .i1⟩
  | .hbm, ⟨63, _⟩ => ⟨S1000x2048, .f32⟩
  | .hbm, ⟨64, _⟩ => ⟨S1x1000x2048, .f32⟩
  | .hbm, ⟨65, _⟩ => ⟨S1x1000x2048, .f32⟩
  | .hbm, ⟨66, _⟩ => ⟨S2x1000x2048, .f32⟩
  | .local _ .vmem, ⟨0, _⟩ => ⟨S512x2048, .f32⟩
  | .local _ .vmem, ⟨1, _⟩ => ⟨S512x2048, .f32⟩
  | .local _ .vmem, ⟨2, _⟩ => ⟨S1x512, .i32⟩
  | .local _ .vmem, ⟨3, _⟩ => ⟨S1x512, .i32⟩
  | .local _ .vmem, ⟨4, _⟩ => ⟨S1x1000x2048, .f32⟩
  | .local _ .vmem, ⟨5, _⟩ => ⟨S1x1000x2048, .f32⟩
  | .local _ .vmem, ⟨6, _⟩ => ⟨S512x2048, .f32⟩
  | .local _ .vmem, ⟨7, _⟩ => ⟨S512x2048, .f32⟩
  | .local _ .vmem, ⟨8, _⟩ => ⟨S1x512, .i32⟩
  | .local _ .vmem, ⟨9, _⟩ => ⟨S1x512, .i32⟩
  | .local _ .vmem, ⟨10, _⟩ => ⟨S1x1000x2048, .f32⟩
  | .local _ .vmem, ⟨11, _⟩ => ⟨S1x1000x2048, .f32⟩
  | _, _ => ⟨S65536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_cst_12 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1000x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 64], ![false, false]⟩

def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![c0_i32.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1000x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S65536_S1x65536 : S65536.ShapeCasts S1x65536
  inb_S1x1000x2048_S1x1000x2048_0_0_0 : ∀ a, (![0, 0, 0] : Fin 3 → Nat) a + S1x1000x2048.size a ≤ S1x1000x2048.size a
  h_S1x1000x2048 : 0 < S1x1000x2048.numel
  shapeCasts_S1x1000x2048_S1000x2048 : S1x1000x2048.ShapeCasts S1000x2048
  shapeCasts_S1000x2048_S1x1000x2048 : S1000x2048.ShapeCasts S1x1000x2048
  inb_S1x512_S1x512_0_0 : ∀ a, (![0, 0] : Fin 2 → Nat) a + S1x512.size a ≤ S1x512.size a
  h_S1x512 : 0 < S1x512.numel
  shapeCasts_S1x512_S1x512 : S1x512.ShapeCasts S1x512
  iota_S1000x1_d0_w32 : S1000x1.Iotas .tc 32 [0]
  broadcasts_S1000x1_S1000x512 : S1000x1.Broadcasts S1000x512
  broadcasts_S1x512_S1000x512 : S1x512.Broadcasts S1000x512
  natLt_1_32 : 1 < 32
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  reducesTo_S2x1000x2048_S1000x2048_d0 : S2x1000x2048.ReducesTo [0] S1000x2048
  h_S_ : 0 < S_.numel
  bcast_S_S65536 : S_.BroadcastsInDim S65536 (![] : Fin 0 → Fin S65536.rank)
  bcast_S_S1000 : S_.BroadcastsInDim S1000 (![] : Fin 0 → Fin S1000.rank)
  bcast_S65536_S65536x1_0 : S65536.BroadcastsInDim S65536x1 (![0] : Fin 1 → Fin S65536x1.rank)
  bcast_S1000_S1000x1_0 : S1000.BroadcastsInDim S1000x1 (![0] : Fin 1 → Fin S1000x1.rank)
  bcast_S1000x1_S1000x2048_0_1 : S1000x1.BroadcastsInDim S1000x2048 (![0, 1] : Fin 2 → Fin S1000x2048.rank)
  bcast_S_S1000x2048 : S_.BroadcastsInDim S1000x2048 (![] : Fin 0 → Fin S1000x2048.rank)
  bcast_S1000x2048_S1x1000x2048_1_2 : S1000x2048.BroadcastsInDim S1x1000x2048 (![1, 2] : Fin 2 → Fin S1x1000x2048.rank)
  concatenates_S1x1000x2048_S1x1000x2048_S2x1000x2048_d0 : Shape.Concatenates [S1x1000x2048, S1x1000x2048] S2x1000x2048 0
  dot_S1000x512_S512x2048_S1000x2048_1_0_0_1_n_n_wf : DotDims.WF S1000x512 S512x2048 S1000x2048 [1] [0] [0] [1] [] []
  scatter_S1000_S65536x1_S65536_n_0_0_1_wf : ScatterDims.WF S1000 S65536x1 S65536 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S65536x2048.size a
  hwx0_0 : ∀ i : grid0.Coords, EltTy.bits .f32 = 32 ∨ (Rect.block (s := S65536x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x65536.size a
  hwx0_1 : ∀ i : grid0.Coords, EltTy.bits .i32 = 32 ∨ (Rect.block (s := S1x65536) S1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1000x2048.size a ≤ S2x1000x2048.size a
  hwx0_2 : ∀ i : grid0.Coords, EltTy.bits .f32 = 32 ∨ (Rect.block (s := S2x1000x2048) S1x1000x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S65536x2048.size a
  hwx1_0 : ∀ i : grid1.Coords, EltTy.bits .f32 = 32 ∨ (Rect.block (s := S65536x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x65536.size a
  hwx1_1 : ∀ i : grid1.Coords, EltTy.bits .i32 = 32 ∨ (Rect.block (s := S1x65536) S1x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1000x2048.size a ≤ S2x1000x2048.size a
  hwx1_2 : ∀ i : grid1.Coords, EltTy.bits .f32 = 32 ∨ (Rect.block (s := S2x1000x2048) S1x1000x2048.size (cc1_transform_2 i) (hinb1_2 i)).WholeWords (EltTy.packing .f32)

variable [Facts₀]

def dot_S1000x512_S512x2048_S1000x2048_1_0_0_1_n_n : DotDims S1000x512 S512x2048 S1000x2048 where
  lhsContracting := [1]
  rhsContracting := [0]
  lhsNonContracting := [0]
  rhsNonContracting := [1]
  lhsBatch := []
  rhsBatch := []
  wf := dot_S1000x512_S512x2048_S1000x2048_1_0_0_1_n_n_wf
def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1000x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1000x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536x2048 : Shape := ⟨2, ![65536, 2048]⟩
abbrev S1000x2048 : Shape := ⟨2, ![1000, 2048]⟩
abbrev S65536 : Shape := ⟨1, ![65536]⟩
abbrev S_ : Shape := ⟨0, ![]⟩
abbrev S65536x1 : Shape := ⟨2, ![65536, 1]⟩
abbrev S1000 : Shape := ⟨1, ![1000]⟩
abbrev S1000x1 : Shape := ⟨2, ![1000, 1]⟩
abbrev S1x1000x2048 : Shape := ⟨3, ![1, 1000, 2048]⟩
abbrev S2x1000x2048 : Shape := ⟨3, ![2, 1000, 2048]⟩

abbrev nBuf : Space → Nat
  | .hbm => 67
  | .vmem => 0
  | .smem => 0
  | _ => 0

abbrev bufTy : (tb : Table) → Fin (tcTables nBuf tb) → BufTy
  | .hbm, ⟨0, _⟩ => ⟨S65536x2048, .f32⟩
  | .hbm, ⟨1, _⟩ => ⟨S65536x2048, .f32⟩
  | .hbm, ⟨2, _⟩ => ⟨S1000x2048, .f32⟩
  | .hbm, ⟨3, _⟩ => ⟨S1000x2048, .f32⟩
  | .hbm, ⟨4, _⟩ => ⟨S65536, .i32⟩
  | .hbm, ⟨5, _⟩ => ⟨S65536, .i32⟩
  | .hbm, ⟨6, _⟩ => ⟨S_, .f32⟩
  | .hbm, ⟨7, _⟩ => ⟨S1000x2048, .f32⟩
  | .hbm, ⟨8, _⟩ => ⟨S65536x1, .i32⟩
  | .hbm, ⟨9, _⟩ => ⟨S1000x2048, .f32⟩
  | .hbm, ⟨10, _⟩ => ⟨S_, .f32⟩
  | .hbm, ⟨11, _⟩ => ⟨S65536, .f32⟩
  | .hbm, ⟨12, _⟩ => ⟨S_, .f32⟩
  | .hbm, ⟨13, _⟩ => ⟨S1000, .f32⟩
  | .hbm, ⟨14, _⟩ => ⟨S65536x1, .i32⟩
  | .hbm, ⟨15, _⟩ => ⟨S1000, .f32⟩
  | .hbm, ⟨16, _⟩ => ⟨S_, .f32⟩
  | .hbm, ⟨17, _⟩ => ⟨S1000, .f32⟩
  | .hbm, ⟨18, _⟩ => ⟨S1000, .f32⟩
  | .hbm, ⟨19, _⟩ => ⟨S1000x1, .f32⟩
  | .hbm, ⟨20, _⟩ => ⟨S1000x2048, .f32⟩
  | .hbm, ⟨21, _⟩ => ⟨S1000x2048, .f32⟩
  | .hbm, ⟨22, _⟩ => ⟨S_, .f32⟩
  | .hbm, ⟨23, _⟩ => ⟨S1000, .f32⟩
  | .hbm, ⟨24, _⟩ => ⟨S1000, .i1⟩
  | .hbm, ⟨25, _⟩ => ⟨S1000x1, .i1⟩
  | .hbm, ⟨26, _⟩ => ⟨S_, .f32⟩
  | .hbm, ⟨27, _⟩ => ⟨S1000x2048, .f32⟩
  | .hbm, ⟨28, _⟩ => ⟨S1000x2048, .f32⟩
  | .hbm, ⟨29, _⟩ => ⟨S_, .f32⟩
  | .hbm, ⟨30, _⟩ => ⟨S1000x2048, .f32⟩
  | .hbm, ⟨31, _⟩ => ⟨S1000x2048, .f32⟩
  | .hbm, ⟨32, _⟩ => ⟨S1000x2048, .f32⟩
  | .hbm, ⟨33, _⟩ => ⟨S1000x2048, .i1⟩
  | .hbm, ⟨34, _⟩ => ⟨S1000x2048, .f32⟩
  | .hbm, ⟨35, _⟩ => ⟨S_, .f32⟩
  | .hbm, ⟨36, _⟩ => ⟨S1000x2048, .f32⟩
  | .hbm, ⟨37, _⟩ => ⟨S65536x1, .i32⟩
  | .hbm, ⟨38, _⟩ => ⟨S1000x2048, .f32⟩
  | .hbm, ⟨39, _⟩ => ⟨S_, .f32⟩
  | .hbm, ⟨40, _⟩ => ⟨S65536, .f32⟩
  | .hbm, ⟨41, _⟩ => ⟨S_, .f32⟩
  | .hbm, ⟨42, _⟩ => ⟨S1000, .f32⟩
  | .hbm, ⟨43, _⟩ => ⟨S65536x1, .i32⟩
  | .hbm, ⟨44, _⟩ => ⟨S1000, .f32⟩
  | .hbm, ⟨45, _⟩ => ⟨S_, .f32⟩
  | .hbm, ⟨46, _⟩ => ⟨S1000, .f32⟩
  | .hbm, ⟨47, _⟩ => ⟨S1000, .f32⟩
  | .hbm, ⟨48, _⟩ => ⟨S1000x1, .f32⟩
  | .hbm, ⟨49, _⟩ => ⟨S1000x2048, .f32⟩
  | .hbm, ⟨50, _⟩ => ⟨S1000x2048, .f32⟩
  | .hbm, ⟨51, _⟩ => ⟨S_, .f32⟩
  | .hbm, ⟨52, _⟩ => ⟨S1000, .f32⟩
  | .hbm, ⟨53, _⟩ => ⟨S1000, .i1⟩
  | .hbm, ⟨54, _⟩ => ⟨S1000x1, .i1⟩
  | .hbm, ⟨55, _⟩ => ⟨S_, .f32⟩
  | .hbm, ⟨56, _⟩ => ⟨S1000x2048, .f32⟩
  | .hbm, ⟨57, _⟩ => ⟨S1000x2048, .f32⟩
  | .hbm, ⟨58, _⟩ => ⟨S_, .f32⟩
  | .hbm, ⟨59, _⟩ => ⟨S1000x2048, .f32⟩
  | .hbm, ⟨60, _⟩ => ⟨S1000x2048, .f32⟩
  | .hbm, ⟨61, _⟩ => ⟨S1000x2048, .f32⟩
  | .hbm, ⟨62, _⟩ => ⟨S1000x2048, .i1⟩
  | .hbm, ⟨63, _⟩ => ⟨S1000x2048, .f32⟩
  | .hbm, ⟨64, _⟩ => ⟨S1x1000x2048, .f32⟩
  | .hbm, ⟨65, _⟩ => ⟨S1x1000x2048, .f32⟩
  | .hbm, ⟨66, _⟩ => ⟨S2x1000x2048, .f32⟩
  | _, _ => ⟨S65536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_v0 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_11 : Ref sig .tc := ⟨.hbm, 55, rfl⟩
abbrev main_v36 : Ref sig .tc := ⟨.hbm, 56, rfl⟩
abbrev main_v37 : Ref sig .tc := ⟨.hbm, 57, rfl⟩
abbrev main_cst_12 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩

abbrev nD : Nat := 1
abbrev τ : Topo := Topo.v7x

variable {F : FTy → Type} [FloatOps F]

class Facts₀ : Prop where
  bcast_S_S1000x2048 : S_.BroadcastsInDim S1000x2048 (![] : Fin 0 → Fin S1000x2048.rank)
  bcast_S65536_S65536x1_0 : S65536.BroadcastsInDim S65536x1 (![0] : Fin 1 → Fin S65536x1.rank)
  bcast_S_S65536 : S_.BroadcastsInDim S65536 (![] : Fin 0 → Fin S65536.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x2048_0_1 : S1000x1.BroadcastsInDim S1000x2048 (![0, 1] : Fin 2 → Fin S1000x2048.rank)
  bcast_S1000x2048_S1x1000x2048_1_2 : S1000x2048.BroadcastsInDim S1x1000x2048 (![1, 2] : Fin 2 → Fin S1x1000x2048.rank)
  concatenates_S1x1000x2048_S1x1000x2048_S2x1000x2048_d0 : Shape.Concatenates [S1x1000x2048, S1x1000x2048] S2x1000x2048 0
  scatter_S1000x2048_S65536x1_S65536x2048_1_0_0_1_wf : ScatterDims.WF S1000x2048 S65536x1 S65536x2048 [1] [0] [0] 1
  scatter_S1000_S65536x1_S65536_n_0_0_1_wf : ScatterDims.WF S1000 S65536x1 S65536 [] [0] [0] 1

variable [Facts₀]

def scatter_S1000x2048_S65536x1_S65536x2048_1_0_0_1 : ScatterDims S1000x2048 S65536x1 S65536x2048 where
  updateWindowDims := [1]
  insertedWindowDims := [0]
  scatterDimsToOperandDims := [0]
  indexVectorDim := 1
  wf := scatter_S1000x2048_S65536x1_S65536x2048_1_0_0_1_wf
def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf

class Facts : Prop extends Facts₀ where

variable [Facts]
-- ==== Proof.Blend.lean ====
/-
  What both programs do AFTER the per-class row sums are known.  The kernel's program and the reference apply the same
  host operations to the sums: count the rows of each label, divide each class's sum by its count (at least one),
  blend the mean into the memory bank with weights 0.8 and 0.2 where the label occurs, keep the bank's row where it
  does not, and stack the two banks.  That shared tail is named here once per program, as one function of the sums,
  and the two spellings are one function: they differ only in which program's shape names and side-condition
  witnesses they mention.
-/
import proofs.«400535_j34479997453023_3_alg».proof.KernelIdeal
import proofs.«400535_j34479997453023_3_alg».proof.ReferenceIdeal

noncomputable section

open Idealize.ShloMosaic

namespace Cert.KernelIdeal.Tail

open Cert.KernelIdeal Cert.KernelIdeal.Facts₀ Cert.KernelIdeal.Facts

variable {F : FTy → Type} [FloatOps F] [Cert.KernelIdeal.Facts]

/-- One memory bank's update, as a function of the per-class row sums `sums`, the bank `mem` and the labels `lab`:
    with `n c` the number of rows labelled `c` (a scatter-add of ones), class `c`'s row becomes
    `0.8 · mem c + 0.2 · (sums c / max (n c) 1)` where `n c > 0`, and stays `mem c` where no row carries the label. -/
def blend (sums mem : FVec F S1000x2048 .f32) (lab : IVec S65536 32) : FVec F S1000x2048 .f32 :=
  (select (broadcastInDim S1000x2048 ![0, 1] bcast_S1000x1_S1000x2048_0_1 (broadcastInDim S1000x1 ![0] bcast_S1000_S1000x1_0 (cmpf (F := F) .ogt (Host.scatterAdd scatter_S1000_S65536x1_S65536_n_0_0_1 (broadcastInDim S1000 ![] bcast_S_S1000 (constant S_ .f32 0x00000000#32)) (broadcastInDim S65536x1 ![0] bcast_S65536_S65536x1_0 lab) (broadcastInDim S65536 ![] bcast_S_S65536 (constant S_ .f32 0x3F800000#32))) (broadcastInDim S1000 ![] bcast_S_S1000 (constant S_ .f32 0x00000000#32))))) (addf (mulf (broadcastInDim S1000x2048 ![] bcast_S_S1000x2048 (constant S_ .f32 0x3F4CCCCD#32)) mem) (mulf (broadcastInDim S1000x2048 ![] bcast_S_S1000x2048 (constant S_ .f32 0x3E4CCCCD#32)) (Host.divf sums (broadcastInDim S1000x2048 ![0, 1] bcast_S1000x1_S1000x2048_0_1 (broadcastInDim S1000x1 ![0] bcast_S1000_S1000x1_0 (maximumf (Host.scatterAdd scatter_S1000_S65536x1_S65536_n_0_0_1 (broadcastInDim S1000 ![] bcast_S_S1000 (constant S_ .f32 0x00000000#32)) (broadcastInDim S65536x1 ![0] bcast_S65536_S65536x1_0 lab) (broadcastInDim S65536 ![] bcast_S_S65536 (constant S_ .f32 0x3F800000#32))) (broadcastInDim S1000 ![] bcast_S_S1000 (constant S_ .f32 0x3F800000#32)))))))) mem)

/-- The two updated banks stacked along a new leading axis. -/
def stack (a b : FVec F S1000x2048 .f32) : FVec F S2x1000x2048 .f32 :=
  concatenate S2x1000x2048 0 [⟨S1x1000x2048, (broadcastInDim S1x1000x2048 ![1, 2] bcast_S1000x2048_S1x1000x2048_1_2 a)⟩, ⟨S1x1000x2048, (broadcastInDim S1x1000x2048 ![1, 2] bcast_S1000x2048_S1x1000x2048_1_2 b)⟩] concatenates_S1x1000x2048_S1x1000x2048_S2x1000x2048_d0

end Cert.KernelIdeal.Tail

namespace Cert.ReferenceIdeal.Tail

open Cert.ReferenceIdeal Cert.ReferenceIdeal.Facts₀ Cert.ReferenceIdeal.Facts

variable {F : FTy → Type} [FloatOps F] [Cert.ReferenceIdeal.Facts]

/-- One memory bank's update, as a function of the per-class row sums `sums`, the bank `mem` and the labels `lab`:
    with `n c` the number of rows labelled `c` (a scatter-add of ones), class `c`'s row becomes
    `0.8 · mem c + 0.2 · (sums c / max (n c) 1)` where `n c > 0`, and stays `mem c` where no row carries the label. -/
def blend (sums mem : FVec F S1000x2048 .f32) (lab : IVec S65536 32) : FVec F S1000x2048 .f32 :=
  (select (broadcastInDim S1000x2048 ![0, 1] bcast_S1000x1_S1000x2048_0_1 (broadcastInDim S1000x1 ![0] bcast_S1000_S1000x1_0 (cmpf (F := F) .ogt (Host.scatterAdd scatter_S1000_S65536x1_S65536_n_0_0_1 (broadcastInDim S1000 ![] bcast_S_S1000 (constant S_ .f32 0x00000000#32)) (broadcastInDim S65536x1 ![0] bcast_S65536_S65536x1_0 lab) (broadcastInDim S65536 ![] bcast_S_S65536 (constant S_ .f32 0x3F800000#32))) (broadcastInDim S1000 ![] bcast_S_S1000 (constant S_ .f32 0x00000000#32))))) (addf (mulf (broadcastInDim S1000x2048 ![] bcast_S_S1000x2048 (constant S_ .f32 0x3F4CCCCD#32)) mem) (mulf (broadcastInDim S1000x2048 ![] bcast_S_S1000x2048 (constant S_ .f32 0x3E4CCCCD#32)) (Host.divf sums (broadcastInDim S1000x2048 ![0, 1] bcast_S1000x1_S1000x2048_0_1 (broadcastInDim S1000x1 ![0] bcast_S1000_S1000x1_0 (maximumf (Host.scatterAdd scatter_S1000_S65536x1_S65536_n_0_0_1 (broadcastInDim S1000 ![] bcast_S_S1000 (constant S_ .f32 0x00000000#32)) (broadcastInDim S65536x1 ![0] bcast_S65536_S65536x1_0 lab) (broadcastInDim S65536 ![] bcast_S_S65536 (constant S_ .f32 0x3F800000#32))) (broadcastInDim S1000 ![] bcast_S_S1000 (constant S_ .f32 0x3F800000#32)))))))) mem)

/-- The two updated banks stacked along a new leading axis. -/
def stack (a b : FVec F S1000x2048 .f32) : FVec F S2x1000x2048 .f32 :=
  concatenate S2x1000x2048 0 [⟨S1x1000x2048, (broadcastInDim S1x1000x2048 ![1, 2] bcast_S1000x2048_S1x1000x2048_1_2 a)⟩, ⟨S1x1000x2048, (broadcastInDim S1x1000x2048 ![1, 2] bcast_S1000x2048_S1x1000x2048_1_2 b)⟩] concatenates_S1x1000x2048_S1x1000x2048_S2x1000x2048_d0

end Cert.ReferenceIdeal.Tail

namespace Cert.Tail

variable {F : FTy → Type} [FloatOps F] [Cert.KernelIdeal.Facts] [Cert.ReferenceIdeal.Facts]

/-- The kernel program's spelling of a bank's update is the reference's. -/
theorem blend_eq (sums mem : FVec F Cert.KernelIdeal.S1000x2048 .f32) (lab : IVec Cert.KernelIdeal.S65536 32) :
    Cert.KernelIdeal.Tail.blend sums mem lab = Cert.ReferenceIdeal.Tail.blend sums mem lab := rfl

/-- The kernel program's spelling of the stacking is the reference's. -/
theorem stack_eq (a b : FVec F Cert.KernelIdeal.S1000x2048 .f32) :
    Cert.KernelIdeal.Tail.stack a b = Cert.ReferenceIdeal.Tail.stack a b := rfl

end Cert.Tail

end
-- ==== Proof.RefValue.lean ====
/-
  The reference's run, with its result named through the shared tail: the result array ends at the two banks' updates
  stacked, each bank's update the shared function of the reference's own per-class row sums — one accumulating scatter
  of all the rows of that modality's features — of the bank and of the labels.
-/
import proofs.«400535_j34479997453023_3_alg».proof.Proof.RefRun
import proofs.«400535_j34479997453023_3_alg».proof.Proof.Blend

noncomputable section

namespace Cert.ReferenceIdeal.RefValue

open Cert.ReferenceIdeal Cert.ReferenceIdeal.Gen Cert.ReferenceIdeal.Tail
open Idealize.ShloMosaic Idealize.ShloMosaic.TcCoe Idealize.SL.Sem

variable {F : FTy → Type} [FloatOps F]

/-- The reference's per-class row sums of features `X` under labels `lab`: every row scattered, accumulating, onto the
    row of a zero array that its label names. -/
abbrev rowSums (X : FVec F S65536x2048 .f32) (lab : IVec S65536 32) : FVec F S1000x2048 .f32 :=
  Host.scatterAdd scatter_S1000x2048_S65536x1_S65536x2048_1_0_0_1 (broadcastInDim S1000x2048 ![] bcast_S_S1000x2048 (constant S_ .f32 0x00000000#32)) (broadcastInDim S65536x1 ![0] bcast_S65536_S65536x1_0 lab) X

set_option maxRecDepth 8192 in
/-- Every weakly fair execution of the reference terminates with the result array at the stacked updates and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44)
        = stack (blend (rowSums (m ((c.tc : Thread nD τ).loc main_arg0)) (m ((c.tc : Thread nD τ).loc main_arg4))) (m ((c.tc : Thread nD τ).loc main_arg2)) (m ((c.tc : Thread nD τ).loc main_arg4)))
                (blend (rowSums (m ((c.tc : Thread nD τ).loc main_arg1)) (m ((c.tc : Thread nD τ).loc main_arg5))) (m ((c.tc : Thread nD τ).loc main_arg3)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.ValueP.run m ρ

end Cert.ReferenceIdeal.RefValue

end
-- ==== Proof.KernelTail.lean ====
/-
  The kernel program's host side, read back.  @main is a fold of nine segments over the buffer contents: a reshape of
  the first label vector, the first launch, the sum of its two halves and a reshape of the second label vector, the
  second launch, and then five stretches that count labels, blend and stack.  What the result array holds after the
  last stretch is the shared tail applied to the two launches' arrays with their halves summed; what each launch finds
  in its windows' arrays are the features as launched and the labels laid out as one row.  Each lemma reads one
  stretch, the contents before the stretch a variable.
-/
import proofs.«400535_j34479997453023_3_alg».proof.Proof.Gen.KernelIdeal.Frame
import proofs.«400535_j34479997453023_3_alg».proof.Proof.Blend
import Idealize.ShloMosaic.Lib.StableHlo.Run

set_option maxRecDepth 16384

noncomputable section

namespace Cert.KernelIdeal.HostSide

open Cert.KernelIdeal Cert.KernelIdeal.Gen Cert.KernelIdeal.Tail
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the second launch: the five closing stretches -/

set_option maxHeartbeats 4000000 in
/-- The result is the two updated banks stacked. -/
theorem W9_v44 (c : Dev nD) : W9 m ρ c (Proc.devRef .tc main_v44)
    = stack (W8 m ρ c (Proc.devRef .tc main_v23)) (W8 m ρ c (Proc.devRef .tc main_v41)) := by
  show StableHlo.after hostOps2_4 (W8 m ρ c) (Proc.devRef .tc main_v44) = _
  generalize W8 m ρ c = W
  after_results
  rfl

set_option maxHeartbeats 4000000 in
/-- The second bank's update: the shared function of the second launch's summed halves, the bank and the labels. -/
theorem W8_v41 (c : Dev nD) : W8 m ρ c (Proc.devRef .tc main_v41)
    = blend (W6 m ρ c (Proc.devRef .tc main_v5)) (W6 m ρ c (Proc.devRef .tc main_arg3)) (W6 m ρ c (Proc.devRef .tc main_arg5)) := by
  show StableHlo.after hostOps2_3 (StableHlo.after hostOps2_2 (W6 m ρ c)) (Proc.devRef .tc main_v41) = _
  generalize W6 m ρ c = W
  after_results_simp
  rfl

set_option maxHeartbeats 4000000 in
/-- The first bank's update is not touched while the second is computed. -/
theorem W8_v23 (c : Dev nD) : W8 m ρ c (Proc.devRef .tc main_v23) = W6 m ρ c (Proc.devRef .tc main_v23) := by
  show StableHlo.after hostOps2_3 (StableHlo.after hostOps2_2 (W6 m ρ c)) (Proc.devRef .tc main_v23) = _
  generalize W6 m ρ c = W
  after_results_simp

set_option maxHeartbeats 4000000 in
/-- The first bank's update: the shared function of the first launch's summed halves, the bank and the labels. -/
theorem W6_v23 (c : Dev nD) : W6 m ρ c (Proc.devRef .tc main_v23)
    = blend (W4 m ρ c (Proc.devRef .tc main_v2)) (W4 m ρ c (Proc.devRef .tc main_arg2)) (W4 m ρ c (Proc.devRef .tc main_arg4)) := by
  show StableHlo.after hostOps2_1 (StableHlo.after hostOps2 (W4 m ρ c)) (Proc.devRef .tc main_v23) = _
  generalize W4 m ρ c = W
  after_results_simp
  rfl

set_option maxHeartbeats 4000000 in
/-- The second launch's two halves, summed from zero. -/
theorem W6_v5 (c : Dev nD) : W6 m ρ c (Proc.devRef .tc main_v5)
    = Host.reduceAdd (W4 m ρ c (Proc.devRef .tc main_v4)) (constant S_ .f32 0x00000000#32) reducesTo_S2x1000x2048_S1000x2048_d0 h_S_ := by
  show StableHlo.after hostOps2_1 (StableHlo.after hostOps2 (W4 m ρ c)) (Proc.devRef .tc main_v5) = _
  generalize W4 m ρ c = W
  after_results_simp

set_option maxHeartbeats 4000000 in
theorem W6_arg3 (c : Dev nD) : W6 m ρ c (Proc.devRef .tc main_arg3) = W4 m ρ c (Proc.devRef .tc main_arg3) := by
  show StableHlo.after hostOps2_1 (StableHlo.after hostOps2 (W4 m ρ c)) (Proc.devRef .tc main_arg3) = _
  generalize W4 m ρ c = W
  after_results_simp

set_option maxHeartbeats 4000000 in
theorem W6_arg5 (c : Dev nD) : W6 m ρ c (Proc.devRef .tc main_arg5) = W4 m ρ c (Proc.devRef .tc main_arg5) := by
  show StableHlo.after hostOps2_1 (StableHlo.after hostOps2 (W4 m ρ c)) (Proc.devRef .tc main_arg5) = _
  generalize W4 m ρ c = W
  after_results_simp

/-! ## At the second launch's exit -/

/-- The second launch's output array holds what its write-backs leave. -/
theorem W4_v4 (c : Dev nD) : W4 m ρ c (Proc.devRef .tc main_v4) = (dat1 (V3 m ρ) c).arrAt 2 cfg1.N := W4_arr m ρ c 2

set_option maxHeartbeats 4000000 in
/-- The first launch's two halves, summed from zero between the launches, are not touched by the second launch. -/
theorem W4_v2 (c : Dev nD) : W4 m ρ c (Proc.devRef .tc main_v2)
    = Host.reduceAdd ((dat0 (V1 m ρ) c).arrAt 2 cfg0.N) (constant S_ .f32 0x00000000#32) reducesTo_S2x1000x2048_S1000x2048_d0 h_S_ := by
  refine (W4_of_ne m ρ c main_v2 (by decide)).trans ?_
  show StableHlo.after hostOps1 (W2 m ρ c) (Proc.devRef .tc main_v2) = _
  rw [← show W2 m ρ c (Proc.devRef .tc main_v1) = (dat0 (V1 m ρ) c).arrAt 2 cfg0.N from W2_arr m ρ c 2]
  generalize W2 m ρ c = W
  after_results_simp

/-- A buffer that neither launch has among its windows' arrays and no stretch before the second launch's exit writes
    holds its launch contents there. -/
theorem W4_launch (c : Dev nD) (b : Ref sig .tc) (hb1 : ∀ w, Pipeline.arrRef spec1 w ≠ b) (hb0 : ∀ w, Pipeline.arrRef spec0 w ≠ b)
    (h1 : ∀ op ∈ (hostOps1 : List (HloOp τ sig (Elt F))), Proc.devRef .tc b ∉ op.writes)
    (h0 : ∀ op ∈ (hostOps0 : List (HloOp τ sig (Elt F))), Proc.devRef .tc b ∉ op.writes) :
    W4 m ρ c (Proc.devRef .tc b) = m ((c : Thread nD τ).loc b) :=
  (W4_of_ne m ρ c b hb1).trans ((StableHlo.after_of_forall_not_mem (b := Proc.devRef .tc b) _ _ h1).trans
    ((W2_of_ne m ρ c b hb0).trans (StableHlo.after_of_forall_not_mem (b := Proc.devRef .tc b) _ _ h0)))

/-- The stretches before and between the launches write none of these. -/
local macro "not_written" : tactic =>
  `(tactic| (refine List.forall_iff_forall_mem.mp ?_
             simp only [hostOps0, hostOps1, List.Forall, StableHlo.nullary_writes, StableHlo.unary_writes, StableHlo.binary_writes,
               StableHlo.reshape_writes, Finset.mem_singleton]
             repeat' apply And.intro
             all_goals exact StableHlo.devRef_ne_of_ne (by decide)))

theorem W4_arg2 (c : Dev nD) : W4 m ρ c (Proc.devRef .tc main_arg2) = m ((c : Thread nD τ).loc main_arg2) :=
  W4_launch m ρ c main_arg2 (by decide) (by decide) (by not_written) (by not_written)
theorem W4_arg3 (c : Dev nD) : W4 m ρ c (Proc.devRef .tc main_arg3) = m ((c : Thread nD τ).loc main_arg3) :=
  W4_launch m ρ c main_arg3 (by decide) (by decide) (by not_written) (by not_written)
theorem W4_arg4 (c : Dev nD) : W4 m ρ c (Proc.devRef .tc main_arg4) = m ((c : Thread nD τ).loc main_arg4) :=
  W4_launch m ρ c main_arg4 (by decide) (by decide) (by not_written) (by not_written)
theorem W4_arg5 (c : Dev nD) : W4 m ρ c (Proc.devRef .tc main_arg5) = m ((c : Thread nD τ).loc main_arg5) :=
  W4_launch m ρ c main_arg5 (by decide) (by decide) (by not_written) (by not_written)

/-! ## What the launches find in their input arrays -/

set_option maxHeartbeats 4000000 in
/-- The first launch's features are the first argument as launched. -/
theorem V1_arg0 (c : Dev nD) : V1 m ρ c main_arg0 = m ((c : Thread nD τ).loc main_arg0) := by
  show StableHlo.after hostOps0 (W0 m ρ c) (Proc.devRef .tc main_arg0) = _
  after_results_simp

set_option maxHeartbeats 4000000 in
/-- The first launch's labels are the first label vector laid out as one row. -/
theorem V1_v0 (c : Dev nD) : V1 m ρ c main_v0
    = shapeCast S1x65536 (m ((c : Thread nD τ).loc main_arg4)) shapeCasts_S65536_S1x65536 := by
  show StableHlo.after hostOps0 (W0 m ρ c) (Proc.devRef .tc main_v0) = _
  after_results_simp
  rfl

set_option maxHeartbeats 4000000 in
/-- The second launch's features are the second argument as launched. -/
theorem V3_arg1 (c : Dev nD) : V3 m ρ c main_arg1 = m ((c : Thread nD τ).loc main_arg1) := by
  show StableHlo.after hostOps1 (W2 m ρ c) (Proc.devRef .tc main_arg1) = _
  refine Eq.trans (b := W2 m ρ c (Proc.devRef .tc main_arg1)) ?_ ?_
  · generalize W2 m ρ c = W
    after_results_simp
  · refine (W2_of_ne m ρ c main_arg1 (by decide)).trans ?_
    show StableHlo.after hostOps0 (W0 m ρ c) (Proc.devRef .tc main_arg1) = _
    after_results_simp

set_option maxHeartbeats 4000000 in
/-- The second launch's labels are the second label vector laid out as one row. -/
theorem V3_v3 (c : Dev nD) : V3 m ρ c main_v3
    = shapeCast S1x65536 (m ((c : Thread nD τ).loc main_arg5)) shapeCasts_S65536_S1x65536 := by
  show StableHlo.after hostOps1 (W2 m ρ c) (Proc.devRef .tc main_v3) = _
  refine Eq.trans (b := shapeCast S1x65536 (W2 m ρ c (Proc.devRef .tc main_arg5)) shapeCasts_S65536_S1x65536) ?_ ?_
  · generalize W2 m ρ c = W
    after_results_simp
    rfl
  · refine congrArg (fun x => shapeCast S1x65536 x shapeCasts_S65536_S1x65536) ?_
    refine (W2_of_ne m ρ c main_arg5 (by decide)).trans ?_
    show StableHlo.after hostOps0 (W0 m ρ c) (Proc.devRef .tc main_arg5) = _
    after_results_simp

/-! ## The result -/

/-- A launch's two halves summed from zero: the per-class row sums as the kernel program has them. -/
abbrev halvesSum (P : FVec F S2x1000x2048 .f32) : FVec F S1000x2048 .f32 :=
  Host.reduceAdd P (constant S_ .f32 0x00000000#32) reducesTo_S2x1000x2048_S1000x2048_d0 h_S_

/-- The result array after the last stretch: the shared tail of the two launches' summed halves. -/
theorem W9_result (c : Dev nD) : W9 m ρ c (Proc.devRef .tc main_v44)
    = stack (blend (halvesSum ((dat0 (V1 m ρ) c).arrAt 2 cfg0.N)) (m ((c : Thread nD τ).loc main_arg2)) (m ((c : Thread nD τ).loc main_arg4)))
            (blend (halvesSum ((dat1 (V3 m ρ) c).arrAt 2 cfg1.N)) (m ((c : Thread nD τ).loc main_arg3)) (m ((c : Thread nD τ).loc main_arg5))) := by
  rw [W9_v44, W8_v23, W6_v23, W8_v41, W6_v5, W6_arg3, W6_arg5, W4_v2, W4_v4, W4_arg2, W4_arg3, W4_arg4, W4_arg5]

end Cert.KernelIdeal.HostSide

end
-- ==== Proof.LibBlockedSum.lean ====
/-
  Sums over a blocked index.  A sum over `Fin N` with `N = n · m` is the double sum over `n` blocks of `m`
  positions, and an accumulation that starts at block 0 and adds one block after another reaches the whole sum:
  both over any additive commutative monoid (no subtraction and no finiteness are used, so they hold over the
  extended reals as they stand).
-/
import Mathlib.Data.Fintype.BigOperators
import Mathlib.Logic.Equiv.Fin.Basic
import Mathlib.Algebra.BigOperators.Group.Finset.Piecewise
import Mathlib.Algebra.BigOperators.Fin

open scoped BigOperators

namespace Cert.LibBlockedSum

variable {M : Type*} [AddCommMonoid M]

/-- Position `b` of block `a`, the blocks `m` long, as an index below `N = n · m`: `a · m + b`. -/
def blockIdx {N : ℕ} (n m : ℕ) (h : n * m = N) (a : Fin n) (b : Fin m) : Fin N :=
  ⟨a.val * m + b.val, by
    have ha : a.val + 1 ≤ n := a.isLt
    have hb : b.val < m := b.isLt
    calc a.val * m + b.val < a.val * m + m := Nat.add_lt_add_left hb _
      _ = (a.val + 1) * m := (Nat.succ_mul _ _).symm
      _ ≤ n * m := Nat.mul_le_mul_right m ha
      _ = N := h⟩

/-- Its value. -/
theorem blockIdx_val {N : ℕ} (n m : ℕ) (h : n * m = N) (a : Fin n) (b : Fin m) :
    (blockIdx n m h a b).val = a.val * m + b.val := rfl

/-- A sum over `Fin N`, `N = n · m`, is the double sum over the `n` blocks and the `m` positions of a block. -/
theorem sum_blocks {N : ℕ} (n m : ℕ) (h : n * m = N) (f : Fin N → M) :
    ∑ k : Fin N, f k = ∑ a : Fin n, ∑ b : Fin m, f (blockIdx n m h a b) := by
  subst h
  rw [← Equiv.sum_comp finProdFinEquiv f, Fintype.sum_prod_type]
  refine Finset.sum_congr rfl fun a _ => Finset.sum_congr rfl fun b _ => congrArg f (Fin.ext ?_)
  show b.val + m * a.val = a.val * m + b.val
  rw [Nat.add_comm, Nat.mul_comm]

/-- The sum of the terms `g 0, …, g k` of `g : Fin n → M`, written as a sum over all of `Fin n` with the later terms
    dropped (so that no index type depends on `k`). -/
def upto (n : ℕ) (g : Fin n → M) (k : ℕ) : M := ∑ a : Fin n, if a.val ≤ k then g a else 0

/-- Up to 0 it is the first term; -/
theorem upto_zero (n : ℕ) (g : Fin n → M) (h : 0 < n) : upto n g 0 = g ⟨0, h⟩ := by
  unfold upto
  rw [Finset.sum_eq_single (⟨0, h⟩ : Fin n)]
  · exact if_pos (Nat.le_refl 0)
  · intro b _ hb
    exact if_neg fun hle => hb (Fin.ext (Nat.le_zero.mp hle))
  · intro hnm; exact absurd (Finset.mem_univ _) hnm

/-- one step further it takes the next term; -/
theorem upto_succ (n : ℕ) (g : Fin n → M) (k : ℕ) (h : k + 1 < n) :
    upto n g (k + 1) = upto n g k + g ⟨k + 1, h⟩ := by
  unfold upto
  have e : ∀ a : Fin n, (if a.val ≤ k + 1 then g a else 0)
      = (if a.val ≤ k then g a else 0) + (if a = (⟨k + 1, h⟩ : Fin n) then g a else 0) := by
    intro a
    by_cases h1 : a.val ≤ k
    · have h2 : a ≠ (⟨k + 1, h⟩ : Fin n) := fun e => by
        have e' : a.val = k + 1 := congrArg Fin.val e
        omega
      rw [if_pos h1, if_pos (Nat.le_succ_of_le h1), if_neg h2, add_zero]
    · by_cases h3 : a = (⟨k + 1, h⟩ : Fin n)
      · have e' : a.val = k + 1 := congrArg Fin.val h3
        rw [if_pos (Nat.le_of_eq e'), if_neg h1, if_pos h3, zero_add]
      · have h4 : ¬a.val ≤ k + 1 := fun hle => h3 (Fin.ext (by show a.val = k + 1; omega))
        rw [if_neg h1, if_neg h4, if_neg h3, add_zero]
  rw [Finset.sum_congr rfl (fun a _ => e a), Finset.sum_add_distrib, Finset.sum_ite_eq']
  rw [if_pos (Finset.mem_univ _)]

/-- and once `k` is the last position it is the whole sum. -/
theorem upto_last (n : ℕ) (g : Fin n → M) (k : ℕ) (h : n ≤ k + 1) : upto n g k = ∑ a : Fin n, g a := by
  unfold upto
  exact Finset.sum_congr rfl fun a _ => if_pos (by have := a.isLt; omega)

end Cert.LibBlockedSum
-- ==== Proof.ScatterSum.lean ====
/-
  The reference's per-label row sum, read at one element.  The reference adds every update row `n` of a
  65536 × 2048 array into the row of a 1000 × 2048 operand that the row's label names, by ONE accumulating
  scatter: update element `(n, d)` lands on operand element `(label n, d)`, the label read as a signed
  integer, and is dropped when the label is outside `0 … 999`.  At the ideal instance the scatter's value at
  an operand element is that element plus the exact sum of the updates landing on it.  So at `(c, e)` it is
  `x (c, e)` plus the sum over the rows `n` whose label is the word `c` of `u (n, e)`:

    `scatterAdd_rows`.

  The steps: the start of update `(n, d)`'s window is `(label n, 0)` and its window coordinate `(0, d)`
  (`start0` … `window1`); an update lands on `i` exactly when start plus window coordinate is `i` on every
  axis (`resultIdx?_eq_some_iff`, for any dimension numbers); a 32-bit word whose signed reading is a natural
  below 1000 is that natural's word (`word_iff`); hence update `(n, d)` lands on `(c, e)` exactly when
  `label n` is the word `c` and `d = e` (`lands_iff`), and the sum over the landing updates is the double
  sum over rows and columns with the column sum collapsed to its one term.
-/
import proofs.«400535_j34479997453023_3_alg».proof.ReferenceIdeal
import Idealize.ShloMosaic.PureOps.Ideal
import Idealize.ShloMosaic.Lib.ValueIdx

noncomputable section

open scoped BigOperators

namespace Cert.ReferenceIdeal.ScatterSum

open Idealize.ShloMosaic Idealize.ShloMosaic.ValueIdx Cert.ReferenceIdeal

variable [Cert.ReferenceIdeal.Facts]

/-- The row scatter's dimension numbers: window axis 1 of the updates, operand axis 0 inserted and named by the
    one index component, the index vector on axis 1 of the labels. -/
abbrev rowDims := scatter_S1000x2048_S65536x1_S65536x2048_1_0_0_1

/-! ## Start and window coordinate of update `(n, d)` -/

/-- On operand axis 0 (an inserted axis) the window coordinate is 0. -/
theorem window0 (n : Fin 65536) (dd : Fin 2048) :
    rowDims.window (ix2 n dd) (0 : Fin 2) = 0 := by
  rfl

/-- On operand axis 1 the window coordinate is the update's column. -/
theorem window1 (n : Fin 65536) (dd : Fin 2048) :
    rowDims.window (ix2 n dd) (1 : Fin 2) = dd.val := by
  rfl

/-- Operand axis 1 is not named by the index map: the window starts at 0 there. -/
theorem start1 (idx : IVec S65536x1 32) (n : Fin 65536) (dd : Fin 2048) :
    rowDims.start (ix2 n dd) idx (1 : Fin 2) = 0 := by
  rfl

/-- Update `(n, d)` reads its one index component at `(n, 0)` of the labels. -/
theorem siIdx0 (n : Fin 65536) (dd : Fin 2048) :
    rowDims.siIdx (ix2 n dd) ⟨0, Nat.zero_lt_one⟩ = ix2 n (0 : Fin 1) := by
  funext b
  match b with
  | ⟨0, _⟩ => rfl
  | ⟨1, _⟩ => rfl

/-- On operand axis 0 the window starts at row `n`'s label, read signed. -/
theorem start0 (idx : IVec S65536x1 32) (n : Fin 65536) (dd : Fin 2048) :
    rowDims.start (ix2 n dd) idx (0 : Fin 2) = (idx (ix2 n (0 : Fin 1))).toInt := by
  have h : rowDims.start (ix2 n dd) idx (0 : Fin 2)
      = (idx (rowDims.siIdx (ix2 n dd) ⟨0, Nat.zero_lt_one⟩)).toInt := rfl
  rw [h, siIdx0]

/-! ## Where an update lands -/

omit [Cert.ReferenceIdeal.Facts] in
/-- For any dimension numbers: update `j` lands on operand index `i` exactly when, on every axis, the start plus
    the window coordinate is `i`'s coordinate.  (Left to right the landing index is that sum; right to left the
    sum is a coordinate of `i`, so it is inside the operand and the update is not dropped.) -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have h1 := congrFun hf a
      have h2 := congrArg Fin.val h1
      simp only at h2
      have := h a
      omega
    · intro hall
      funext a
      apply Fin.ext
      have := hall a
      have := h a
      show (d.start j idx a + d.window j a).toNat = (i a).val
      omega
  · constructor
    · intro h0
      exact absurd h0 (by simp)
    · intro hall
      exfalso
      apply h
      intro a
      have := hall a
      have := (i a).isLt
      omega

omit [Cert.ReferenceIdeal.Facts] in
/-- A 32-bit word's signed reading is the natural `c < 1000` exactly when the word is `c`'s: both say the
    unsigned reading is `c`, since `c` is below `2 ^ 31`. -/
theorem word_iff (l : BitVec 32) (c : Nat) (hc : c < 1000) : l.toInt = (c : Int) ↔ l = BitVec.ofNat 32 c := by
  rw [← BitVec.toNat_inj, BitVec.toNat_ofNat, BitVec.toInt_eq_toNat_cond]
  have := l.isLt
  split_ifs <;> omega

/-- Update `(n, d)` lands on operand element `(c, e)` exactly when row `n`'s label is the word `c` and `d = e`. -/
theorem lands_iff (idx : IVec S65536x1 32) (n : Fin 65536) (dd : Fin 2048) (c : Fin 1000) (e : Fin 2048) :
    rowDims.resultIdx? (ix2 n dd) idx = some (ix2 c e)
      ↔ (idx (ix2 n (0 : Fin 1)) = BitVec.ofNat 32 c.val ∧ dd = e) := by
  rw [resultIdx?_eq_some_iff]
  rw [← word_iff _ _ c.isLt]
  have h0 := start0 idx n dd
  have h1 := start1 idx n dd
  have w0 := window0 n dd
  have w1 := window1 n dd
  constructor
  · intro hall
    have a0 := hall (0 : Fin 2)
    have a1 := hall (1 : Fin 2)
    rw [h0, w0] at a0
    rw [h1, w1] at a1
    refine ⟨?_, Fin.ext ?_⟩
    · simpa using a0
    · have : ((ix2 c e (1 : Fin 2)).val : Int) = (e.val : Int) := rfl
      omega
  · rintro ⟨hl, rfl⟩ a
    match a with
    | ⟨0, _⟩ =>
      show rowDims.start (ix2 n dd) idx (0 : Fin 2) + (rowDims.window (ix2 n dd) (0 : Fin 2) : Int) = (c.val : Int)
      rw [h0, w0, hl]; simp
    | ⟨1, _⟩ =>
      show rowDims.start (ix2 n dd) idx (1 : Fin 2) + (rowDims.window (ix2 n dd) (1 : Fin 2) : Int) = (dd.val : Int)
      rw [h1, w1]; simp

/-! ## The scatter at one element -/

/-- The accumulating row scatter at operand element `(c, e)`: the operand's element plus the sum, over the rows
    `n` whose label is the word `c`, of the update's element `(n, e)`. -/
theorem scatterAdd_rows (x : FVec Ideal S1000x2048 .f32) (idx : IVec S65536x1 32) (u : FVec Ideal S65536x2048 .f32)
    (c : Fin 1000) (e : Fin 2048) :
    Host.scatterAdd (F := Ideal) scatter_S1000x2048_S65536x1_S65536x2048_1_0_0_1 x idx u (ix2 c e)
      = x (ix2 c e) + ∑ n : Fin 65536, (if idx (ix2 n (0 : Fin 1)) = BitVec.ofNat 32 c.val then u (ix2 n e) else 0) := by
  have key : Host.scatterAdd (F := Ideal) rowDims x idx u = Ideal.hostScatterAdd rowDims x idx u := rfl
  rw [key]
  unfold Ideal.hostScatterAdd
  refine congrArg (fun t => x (ix2 c e) + t) ?_
  rw [Finset.sum_filter, sum_idx2]
  refine Finset.sum_congr rfl fun n _ => ?_
  simp only [lands_iff]
  by_cases hP : idx (ix2 n (0 : Fin 1)) = BitVec.ofNat 32 c.val
  · simp [hP]
  · simp [hP]

end Cert.ReferenceIdeal.ScatterSum
-- ==== Proof.SumsEq.lean ====
/-
  The per-class row sums: the kernel's and the reference's are one function.

  The kernel's two launches each leave a [2, 1000, 2048] array `P`: half `s` of it holds, at `(cl, e)`, the sum over
  the 64 row blocks `j` of half `s` and the 512 rows `k` of a block of the feature `X (row, e)` of every row whose
  label is the word `cl`.  The program then adds the two halves (a host sum over the leading axis from zero).  The
  reference scatters every row of `X` onto the row of a zero array that the row's label names, which at `(cl, e)` is
  the sum over ALL 65536 rows of `X (n, e)` where row `n`'s label is the word `cl`.  A row index below
  65536 = 2 · 64 · 512 is uniquely `(s · 64 + j) · 512 + k`, so the sum over all rows is the triple sum over halves,
  blocks and rows of a block; sums over the extended reals are commutative and associative and `0 + x = x`, so nothing
  about finiteness is used.  The labels reach the kernel as one row `[1, 65536]` and the reference as one column
  `[65536, 1]`: both are the label vector read at `n`.
-/
import proofs.«400535_j34479997453023_3_alg».proof.KernelIdeal
import proofs.«400535_j34479997453023_3_alg».proof.ReferenceIdeal
import proofs.«400535_j34479997453023_3_alg».proof.Proof.Gen.KernelIdeal
import proofs.«400535_j34479997453023_3_alg».proof.Proof.Gen.ReferenceIdeal
import proofs.«400535_j34479997453023_3_alg».proof.Proof.LibBlockedSum
import proofs.«400535_j34479997453023_3_alg».proof.Proof.ScatterSum
import Idealize.ShloMosaic.PureOps.Ideal.Laws
import Idealize.ShloMosaic.Lib.Pipeline.Value
import Idealize.ShloMosaic.Lib.ValueIdx

noncomputable section

open Idealize.ShloMosaic Idealize.ShloMosaic.ValueIdx Cert.LibBlockedSum

namespace Cert.SumsEq

open Cert.KernelIdeal Cert.KernelIdeal.Facts₀

/-- The labels laid out as one row of 65536 are the labels. -/
theorem labels_row (lab : IVec S65536 32) (n : Fin 65536) :
    shapeCast S1x65536 lab shapeCasts_S65536_S1x65536 (ix2 (0 : Fin 1) n) = lab (ix1 n) :=
  (shapeCast_addUnit_apply (n := 1) ![65536] lab shapeCasts_S65536_S1x65536 (ix2 (0 : Fin 1) n)).trans
    (congrArg lab (funext fun a => by match a with | ⟨0, _⟩ => rfl))

/-- The labels laid out as one column of 65536 are the labels. -/
theorem labels_col (lab : IVec S65536 32) (n : Fin 65536) :
    broadcastInDim S65536x1 ![0] bcast_S65536_S65536x1_0 lab (ix2 n (0 : Fin 1)) = lab (ix1 n) :=
  broadcastInDim_apply _ _ lab _ (ix1 n) (fun a => by
    match a with
    | ⟨0, _⟩ => exact show n.val = if (65536 : Nat) = 1 then 0 else n.val from (if_neg (by decide)).symm)

/-- The scatter's operand, a splat of the zero word, is the extended real zero everywhere. -/
theorem zero_init (i : S1000x2048.Idx) :
    broadcastInDim S1000x2048 ![] bcast_S_S1000x2048 (constant (F := Ideal) S_ .f32 0x00000000#32) i = 0 :=
  (broadcastInDim_apply _ _ _ i ix0 (fun a => a.elim0)).trans
    (show Ideal.ofBits .f32 0x00000000#32 = 0 from Ideal.ofBits_zero_f32)

/-- Summing the two halves' partial sums: the index over `(cl, e)` with `s` put on the dropped leading axis. -/
theorem lift_eq (h : S2x1000x2048.Reduces [0] S1000x2048) (s : Fin 2) (cl : Fin 1000) (e : Fin 2048) :
    h.lift (ix2 cl e) s = ix3 s cl e := by
  funext a
  apply Fin.ext
  match a with
  | ⟨0, _⟩ => rfl
  | ⟨1, _⟩ => rfl
  | ⟨2, _⟩ => rfl

/-- The host's sum of the two halves is the reference's scatter of all the rows. -/
theorem sums_eq (P : FVec Ideal S2x1000x2048 .f32) (X : FVec Ideal S65536x2048 .f32) (lab : IVec S65536 32)
    (hP : ∀ (s : Fin 2) (cl : Fin 1000) (e : Fin 2048), P (ix3 s cl e) = ∑ j : Fin 64, ∑ k : Fin 512,
        (if shapeCast S1x65536 lab shapeCasts_S65536_S1x65536 (ix2 (0 : Fin 1) (blockIdx 128 512 rfl (blockIdx 2 64 rfl s j) k)) = BitVec.ofNat 32 cl.val
         then X (ix2 (blockIdx 128 512 rfl (blockIdx 2 64 rfl s j) k) e) else 0)) :
    Host.reduceAdd (F := Ideal) P (constant S_ .f32 0x00000000#32) reducesTo_S2x1000x2048_S1000x2048_d0 h_S_
      = Host.scatterAdd (F := Ideal) Cert.ReferenceIdeal.scatter_S1000x2048_S65536x1_S65536x2048_1_0_0_1
          (broadcastInDim S1000x2048 ![] bcast_S_S1000x2048 (constant S_ .f32 0x00000000#32))
          (broadcastInDim S65536x1 ![0] bcast_S65536_S65536x1_0 lab) X := by
  funext i
  obtain ⟨cl, e, rfl⟩ : ∃ (cl : Fin 1000) (e : Fin 2048), i = ix2 cl e := ⟨i 0, i 1, eq_ix2 i⟩
  rw [Cert.ReferenceIdeal.ScatterSum.scatterAdd_rows, zero_init, zero_add]
  show Ideal.hostReduceAdd reducesTo_S2x1000x2048_S1000x2048_d0 P _ (ix2 cl e) = _
  rw [Ideal.hostReduceAdd_single reducesTo_S2x1000x2048_S1000x2048_d0 (by decide : S2x1000x2048.Reduces [0] S1000x2048)]
  rw [show constant (F := Ideal) S_ .f32 0x00000000#32 (Shape.Idx.first h_S_) = 0 from Ideal.ofBits_zero_f32, zero_add]
  rw [sum_blocks (N := 65536) 128 512 rfl, sum_blocks (N := 128) 2 64 rfl]
  refine Finset.sum_congr rfl fun s _ => ?_
  refine (congrArg P (lift_eq _ s cl e)).trans ((hP s cl e).trans ?_)
  refine Finset.sum_congr rfl fun j _ => Finset.sum_congr rfl fun k _ => ?_
  rw [labels_row, labels_col]

end Cert.SumsEq
end
-- ==== Proof.Region0.lean ====
/-
  The value of the scatter-sum region, read off its frame at the ideal values.

  The body runs on a grid of 2 × 64 points, point `t = 64 s + r`.  At `r = 0` it zeroes its resident output block
  [1, 1000, 2048]; at every point it adds to the block the product of the one-hot matrix of the point's 512 labels
  (1000 × 512: entry (class, k) is one when label k is the class, zero otherwise) with the point's 512 × 2048 block of
  features; after `r = 63` the block is written back as row-block `s` of the result [2, 1000, 2048].

  Over the extended reals the one-hot product at (class, column) is the sum of the feature entries of the point's
  rows whose label is the class; the running value after point `64 s + r` is the sum of these terms over the points
  `64 s, …, 64 s + r` (by induction on `r`), and after `r = 63` it is the whole sum over the 64 · 512 rows of row-block
  `s`.  The two flushing points `63` and `127` cover the result array, so it ends holding these sums.

  Everything is stated at the buffer contents `V` the region finds when it is entered.
-/
import proofs.«400535_j34479997453023_3_alg».proof.Proof.Gen.KernelIdeal.Frame
import proofs.«400535_j34479997453023_3_alg».proof.Proof.LibBlockedSum
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.RegionValue

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.LibBlockedSum
open scoped BigOperators

variable (V : (c : Dev nD) → (b : Ref sig .tc) → Buf (Elt Ideal) ((c : Thread nD τ).loc b))

namespace R0

/-! ## The payload at an index -/

/-- A widened one-bit equality test, read as a signed integer, is one or zero. -/
theorem onehot_val (a b : BitVec 32) :
    (FloatOps.sitofp (F := Ideal) .f32 ((IntOp.cmpi .eq a b).setWidth 32) : EReal) = if b = a then 1 else 0 := by
  show (((BitVec.setWidth 32 (IntOp.cmpi .eq a b)).toInt : ℝ) : EReal) = _
  by_cases h : b = a
  · have h1 : IntOp.cmpi .eq a b = 1#1 := by subst h; simp [IntOp.cmpi]
    rw [if_pos h, h1]
    have h2 : (BitVec.setWidth 32 1#1).toInt = 1 := by decide
    rw [h2]; simp
  · have h1 : IntOp.cmpi .eq a b = 0#1 := by
      show BitVec.ofBool (a == b) = 0#1
      rw [beq_eq_false_iff_ne.mpr (fun e => h e.symm)]; rfl
    rw [if_neg h, h1]
    have h2 : (BitVec.setWidth 32 0#1).toInt = 0 := by decide
    rw [h2]; simp

/-- A column broadcast along the rows: an `[a, 1]` array broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The contraction's operand indices, axis by axis: the left operand is read at (row of the result, contraction
    position), the right operand at (contraction position, column of the result). -/
theorem lhs_axis_0 (j : S1000x2048.Idx) (k : dot_S1000x512_S512x2048_S1000x2048_1_0_0_1_n_n.contr.Idx) :
    (dot_S1000x512_S512x2048_S1000x2048_1_0_0_1_n_n.lhsIdx j k 0).val = (j 0).val := rfl
theorem lhs_axis_1 (j : S1000x2048.Idx) (k : dot_S1000x512_S512x2048_S1000x2048_1_0_0_1_n_n.contr.Idx) :
    (dot_S1000x512_S512x2048_S1000x2048_1_0_0_1_n_n.lhsIdx j k 1).val = (k ⟨0, by decide⟩).val :=
  DotDims.lhsIdx_val_of_single dot_S1000x512_S512x2048_S1000x2048_1_0_0_1_n_n (cl := 1) rfl j k
theorem rhs_axis_0 (j : S1000x2048.Idx) (k : dot_S1000x512_S512x2048_S1000x2048_1_0_0_1_n_n.contr.Idx) :
    (dot_S1000x512_S512x2048_S1000x2048_1_0_0_1_n_n.rhsIdx j k 0).val = (k ⟨0, by decide⟩).val :=
  DotDims.rhsIdx_val_of_single dot_S1000x512_S512x2048_S1000x2048_1_0_0_1_n_n (cr := 0) rfl j k
theorem rhs_axis_1 (j : S1000x2048.Idx) (k : dot_S1000x512_S512x2048_S1000x2048_1_0_0_1_n_n.contr.Idx) :
    (dot_S1000x512_S512x2048_S1000x2048_1_0_0_1_n_n.rhsIdx j k 1).val = (j 1).val := rfl

/-- The body's payload at an index of the output block: the block's running value there plus the one-hot row of the
    labels against the feature column, that is the sum of the feature entries whose label is the row's class. -/
theorem pay2_apply (v3 : IVec S1x512 32) (v12 : FVec Ideal S512x2048 .f32) (v14 : FVec Ideal S1x1000x2048 .f32)
    (cl : Fin 1000) (e : Fin 2048) :
    (k0_pay2 (F := Ideal) v3 v12 v14 (ix3 (0 : Fin 1) cl e) : EReal)
      = v14 (ix3 (0 : Fin 1) cl e) + ∑ k : Fin 512, (if v3 (ix2 (0 : Fin 1) k) = BitVec.ofNat 32 cl.val then v12 (ix2 k e) else 0) := by
  unfold k0_pay2
  refine (shapeCast_ab_1ab_apply _ _ (0 : Fin 1) cl e).trans ?_
  refine (addf_apply _ _ _).trans ?_
  refine congrArg₂ (· + ·) (shapeCast_1ab_ab_apply v14 _ cl e) ?_
  refine (Ideal.matmul_constant_zero_apply dot_S1000x512_S512x2048_S1000x2048_1_0_0_1_n_n none _ _ (ix2 cl e)).trans ?_
  refine (Equiv.sum_comp (contrEquiv1 dot_S1000x512_S512x2048_S1000x2048_1_0_0_1_n_n 512 rfl rfl).symm _).symm.trans ?_
  refine Finset.sum_congr rfl fun k _ => ?_
  have hl : dot_S1000x512_S512x2048_S1000x2048_1_0_0_1_n_n.lhsIdx (ix2 cl e)
      ((contrEquiv1 dot_S1000x512_S512x2048_S1000x2048_1_0_0_1_n_n 512 rfl rfl).symm k) = ix2 cl k :=
    funext fun a => Fin.ext (by
      match a with
      | ⟨0, _⟩ => exact lhs_axis_0 _ _
      | ⟨1, _⟩ => exact (lhs_axis_1 _ _).trans (contrEquiv1_symm_val _ 512 rfl rfl k))
  have hr : dot_S1000x512_S512x2048_S1000x2048_1_0_0_1_n_n.rhsIdx (ix2 cl e)
      ((contrEquiv1 dot_S1000x512_S512x2048_S1000x2048_1_0_0_1_n_n 512 rfl rfl).symm k) = ix2 k e :=
    funext fun a => Fin.ext (by
      match a with
      | ⟨0, _⟩ => exact (rhs_axis_0 _ _).trans (contrEquiv1_symm_val _ 512 rfl rfl k)
      | ⟨1, _⟩ => exact rhs_axis_1 _ _)
  rw [hl, hr]
  have e1 : broadcastTo S1000x512 (iota .tc S1000x1 32 [0] iota_S1000x1_d0_w32) broadcasts_S1000x1_S1000x512 (ix2 cl k)
      = BitVec.ofNat 32 cl.val :=
    (broadcastTo_a1_ab_apply _ _ cl k).trans (iota_single_apply .tc S1000x1 32 0 _ (ix2 cl (0 : Fin 1)))
  have e2 : broadcastTo S1000x512 (shapeCast S1x512 v3 shapeCasts_S1x512_S1x512) broadcasts_S1x512_S1000x512 (ix2 cl k)
      = v3 (ix2 (0 : Fin 1) k) :=
    (broadcastTo_1b_ab_apply _ _ cl k).trans (congrFun (shapeCast_self v3 _) _)
  show FloatOps.sitofp (F := Ideal) .f32 ((IntOp.cmpi .eq
        (broadcastTo S1000x512 (iota .tc S1000x1 32 [0] iota_S1000x1_d0_w32) broadcasts_S1000x1_S1000x512 (ix2 cl k))
        (broadcastTo S1000x512 (shapeCast S1x512 v3 shapeCasts_S1x512_S1x512) broadcasts_S1x512_S1000x512 (ix2 cl k))).setWidth 32)
      * v12 (ix2 k e) = _
  rw [e1, e2, onehot_val]
  by_cases hq : v3 (ix2 (0 : Fin 1) k) = BitVec.ofNat 32 cl.val
  · rw [if_pos hq, if_pos hq, one_mul]
  · rw [if_neg hq, if_neg hq, zero_mul]

/-! ## What each case of the body leaves in the output block -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from a row-block's first point the body leaves the payload of the labels block, the features block and the
    block's running value. -/
theorem out_B (c : Dev nD) (i : grid0.Coords) (a2 : Memref sig .tc .vmem S512x2048 .f32) (h2 : a2.IsWhole)
    (a3 : Memref sig .tc .vmem S1x512 .i32) (h3 : a3.IsWhole) (a4 : Memref sig .tc .vmem S1x1000x2048 .f32) (h4 : a4.IsWhole)
    (hc : ¬cond0_0 i) (x0 : Vec F S512x2048 .f32) (x1 : Vec F S1x512 .i32) (xo : Vec F S1x1000x2048 .f32) :
    out0_B_2 c i a2 h2 a3 h3 a4 h4 hc x0 x1 xo = k0_pay2 x1 x0 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S512x2048) hz2,
    View.ld_unit_zero (S := S1x512) hz2, View.ld_unit_zero (S := S1x1000x2048) hz3]

/-- At a row-block's first point the body first stores the zero block and then leaves the payload over it. -/
theorem out_A (c : Dev nD) (i : grid0.Coords) (a2 : Memref sig .tc .vmem S512x2048 .f32) (h2 : a2.IsWhole)
    (a3 : Memref sig .tc .vmem S1x512 .i32) (h3 : a3.IsWhole) (a4 : Memref sig .tc .vmem S1x1000x2048 .f32) (h4 : a4.IsWhole)
    (hc : cond0_0 i) (x0 : Vec F S512x2048 .f32) (x1 : Vec F S1x512 .i32) :
    out0_A_2 c i a2 h2 a3 h3 a4 h4 hc x0 x1 = k0_pay2 x1 x0 k0_pay1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1000x2048) hz3, View.readCov_unit_zero (S := S1x1000x2048) _ hz3]
  simp only [View.readAt_eq_ld, h2.read_unread, h3.read_unread, View.ld_unit_zero (S := S512x2048) hz2,
    View.ld_unit_zero (S := S1x512) hz2]

end Pieces

/-! ## The blocks the windows hand the body, read off the arrays -/

/-- The printed index maps, decided over the grid: the features window steps along the rows and the labels window along
    the columns with the point, the output window with the point's row-block. -/
theorem idx_facts : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 3) = t.val / 64 ∧ win0_2.index t (1 : Fin 3) = 0 ∧ win0_2.index t (2 : Fin 3) = 0 :=
  (by decide +kernel : ∀ t : Fin grid0.N, win0_0.index t (0 : Fin 2) = t.val ∧ win0_0.index t (1 : Fin 2) = 0
    ∧ win0_1.index t (0 : Fin 2) = 0 ∧ win0_1.index t (1 : Fin 2) = t.val
    ∧ win0_2.index t (0 : Fin 3) = t.val / 64 ∧ win0_2.index t (1 : Fin 3) = 0 ∧ win0_2.index t (2 : Fin 3) = 0)

/-- The features and the labels as the region finds them, and the blocks of them a point is handed. -/
abbrev feat (c : Dev nD) : S65536x2048.Idx → EReal := V c main_arg0
abbrev lab (c : Dev nD) : S1x65536.Idx → BitVec 32 := V c main_v0
abbrev fblk (c : Dev nD) (t : Fin cfg0.N) : FVec Ideal S512x2048 .f32 := iblk0 V c 0 t
abbrev lblk (c : Dev nD) (t : Fin cfg0.N) : IVec S1x512 32 := iblk0 V c 1 t

/-- A point of the grid as a number below 128. -/
def pt (t : Fin cfg0.N) : Fin 128 := ⟨t.val, lt_of_lt_of_eq t.isLt N_0⟩

/-- Row `k` of the features block at point `t` is row `512 t + k` of the features. -/
theorem fblk_apply (c : Dev nD) (t : Fin cfg0.N) (k : Fin 512) (e : Fin 2048) :
    fblk V c t (ix2 k e) = feat V c (ix2 (blockIdx 128 512 rfl (pt t) k) e) := by
  obtain ⟨e0, e1, -⟩ := idx_facts t
  unfold fblk iblk0
  rw [View.read_apply]
  show V c main_arg0 _ = V c main_arg0 _
  congr 1
  funext a
  apply Fin.ext
  match a with
  | ⟨0, _⟩ => show win0_0.index t (0 : Fin 2) * 512 + 1 * k.val = t.val * 512 + k.val; rw [e0]; omega
  | ⟨1, _⟩ => show win0_0.index t (1 : Fin 2) * 2048 + 1 * e.val = e.val; rw [e1]; omega

/-- Column `k` of the labels block at point `t` is column `512 t + k` of the labels. -/
theorem lblk_apply (c : Dev nD) (t : Fin cfg0.N) (k : Fin 512) :
    lblk V c t (ix2 (0 : Fin 1) k) = lab V c (ix2 (0 : Fin 1) (blockIdx 128 512 rfl (pt t) k)) := by
  obtain ⟨-, -, e2, e3, -⟩ := idx_facts t
  unfold lblk iblk0
  rw [View.read_apply]
  show V c main_v0 _ = V c main_v0 _
  congr 1
  funext a
  apply Fin.ext
  match a with
  | ⟨0, _⟩ => show win0_1.index t (0 : Fin 2) * 1 + 1 * 0 = 0; rw [e2]
  | ⟨1, _⟩ => show win0_1.index t (1 : Fin 2) * 512 + 1 * k.val = t.val * 512 + k.val; rw [e3]; omega

/-! ## The running value of the output block -/

/-- What one point adds at class `cl`, column `e`: the feature entries of its 512 rows whose label is `cl`. -/
def term (c : Dev nD) (cl : Fin 1000) (e : Fin 2048) (p : Fin 128) : EReal :=
  ∑ k : Fin 512, (if lab V c (ix2 (0 : Fin 1) (blockIdx 128 512 rfl p k)) = BitVec.ofNat 32 cl.val
    then feat V c (ix2 (blockIdx 128 512 rfl p k) e) else 0)

/-- The payload at a point, over any running value: the running value plus the point's term. -/
theorem pay2_point (c : Dev nD) (t : Fin cfg0.N) (acc : FVec Ideal S1x1000x2048 .f32) (cl : Fin 1000) (e : Fin 2048) :
    (k0_pay2 (F := Ideal) (lblk V c t) (fblk V c t) acc (ix3 (0 : Fin 1) cl e) : EReal)
      = acc (ix3 (0 : Fin 1) cl e) + term V c cl e (pt t) := by
  refine (pay2_apply (lblk V c t) (fblk V c t) acc cl e).trans ?_
  refine congrArg (acc (ix3 (0 : Fin 1) cl e) + ·) ?_
  unfold term
  refine Finset.sum_congr rfl fun k _ => ?_
  rw [lblk_apply V c t k, fblk_apply V c t k e]

/-- The zero block reads zero. -/
theorem pay1_apply (cl : Fin 1000) (e : Fin 2048) : (k0_pay1 (F := Ideal) (ix3 (0 : Fin 1) cl e) : EReal) = 0 := by
  unfold k0_pay1
  refine (shapeCast_ab_1ab_apply _ _ (0 : Fin 1) cl e).trans ?_
  exact Ideal.ofBits_zero_f32

/-- The running value does not depend on how the point's number is written. -/
theorem outsAt_congr (c : Dev nD) (n n' : ℕ) (h : n < cfg0.N) (h' : n' < cfg0.N) (e : n = n') :
    outsAt0 V c n h = outsAt0 V c n' h' := by subst e; rfl

/-- THE INVARIANT. After point `64 s + r` the output block holds, at class `cl` and column `e`, the terms of the
    points `64 s, …, 64 s + r` of its row-block added up. -/
theorem outsAt_eq (c : Dev nD) (cl : Fin 1000) (e : Fin 2048) (s : Fin 2) :
    ∀ (r : ℕ) (hr : r < 64) (h : 64 * s.val + r < cfg0.N),
      (outsAt0 V c (64 * s.val + r) h (ix3 (0 : Fin 1) cl e) : EReal)
        = upto 64 (fun j : Fin 64 => term V c cl e (blockIdx 2 64 rfl s j)) r
  | 0, hr, h => by
    have h0 : (⟨64 * s.val + 0, h⟩ : Fin cfg0.N).val % 64 = 0 := by dsimp only; omega
    refine (congrFun (outsAt0_A V c ⟨64 * s.val + 0, h⟩ h0) (ix3 (0 : Fin 1) cl e)).trans ?_
    refine (congrFun (out_A (F := Ideal) c (grid0.coords ⟨64 * s.val + 0, h⟩) (ms0_0 ⟨64 * s.val + 0, h⟩) (hs0_0 ⟨64 * s.val + 0, h⟩)
      (ms0_1 ⟨64 * s.val + 0, h⟩) (hs0_1 ⟨64 * s.val + 0, h⟩) (ms0_2 ⟨64 * s.val + 0, h⟩) (hs0_2 ⟨64 * s.val + 0, h⟩)
      ((hcond0_0 ⟨64 * s.val + 0, h⟩).mpr h0) (iblk0 V c 0 ⟨64 * s.val + 0, h⟩) (iblk0 V c 1 ⟨64 * s.val + 0, h⟩))
      (ix3 (0 : Fin 1) cl e)).trans ?_
    refine (pay2_point V c ⟨64 * s.val + 0, h⟩ k0_pay1 cl e).trans ?_
    rw [pay1_apply, zero_add, upto_zero 64 _ (by decide)]
    exact congrArg (term V c cl e) (Fin.ext (by show 64 * s.val + 0 = s.val * 64 + 0; omega))
  | r + 1, hr, h => by
    have hB : ¬(⟨64 * s.val + (r + 1), h⟩ : Fin cfg0.N).val % 64 = 0 := by dsimp only; omega
    have hN : cfg0.N = 128 := N_0
    have h' : 64 * s.val + r < cfg0.N := by omega
    refine (congrFun (outsAt0_B V c ⟨64 * s.val + (r + 1), h⟩ hB) (ix3 (0 : Fin 1) cl e)).trans ?_
    refine (congrFun (out_B (F := Ideal) c (grid0.coords ⟨64 * s.val + (r + 1), h⟩) (ms0_0 ⟨64 * s.val + (r + 1), h⟩) (hs0_0 ⟨64 * s.val + (r + 1), h⟩)
      (ms0_1 ⟨64 * s.val + (r + 1), h⟩) (hs0_1 ⟨64 * s.val + (r + 1), h⟩) (ms0_2 ⟨64 * s.val + (r + 1), h⟩) (hs0_2 ⟨64 * s.val + (r + 1), h⟩)
      (fun hh => hB ((hcond0_0 ⟨64 * s.val + (r + 1), h⟩).mp hh)) (iblk0 V c 0 ⟨64 * s.val + (r + 1), h⟩) (iblk0 V c 1 ⟨64 * s.val + (r + 1), h⟩)
      (outsAt0 V c ((⟨64 * s.val + (r + 1), h⟩ : Fin cfg0.N).val - 1) (Nat.lt_of_le_of_lt (Nat.sub_le _ _) (⟨64 * s.val + (r + 1), h⟩ : Fin cfg0.N).isLt)))
      (ix3 (0 : Fin 1) cl e)).trans ?_
    refine (pay2_point V c ⟨64 * s.val + (r + 1), h⟩ _ cl e).trans ?_
    rw [outsAt_congr V c _ (64 * s.val + r) _ h' (by dsimp only; omega), outsAt_eq c cl e s r (by omega) h',
      upto_succ 64 _ r hr]
    exact congrArg (_ + ·) (congrArg (term V c cl e) (Fin.ext (by show 64 * s.val + (r + 1) = s.val * 64 + (r + 1); omega)))

/-! ## The result array -/

/-- The row-block a point belongs to. -/
def sOf (t : Fin cfg0.N) : Fin 2 := ⟨t.val / 64, by have := lt_of_lt_of_eq t.isLt N_0; omega⟩

/-- The scatter sum of row-block `s` at class `cl`, column `e`: the terms of all its 64 points. -/
def total (c : Dev nD) (s : Fin 2) (cl : Fin 1000) (e : Fin 2048) : EReal :=
  ∑ j : Fin 64, term V c cl e (blockIdx 2 64 rfl s j)

/-- The result array: the scatter sums, row-block by row-block. -/
abbrev result (c : Dev nD) : Buf (Elt Ideal) ((c : Thread nD τ).loc main_v1) :=
  (fun (i : S2x1000x2048.Idx) => total V c (i 0) (i 1) (i 2) : S2x1000x2048.Idx → EReal)

/-- After the last point of a row-block the output block holds the row-block's scatter sum. -/
theorem outs_flush (c : Dev nD) (t : Fin cfg0.N) (h63 : t.val % 64 = 63) (cl : Fin 1000) (e : Fin 2048) :
    (outsAt0 V c t.val t.isLt (ix3 (0 : Fin 1) cl e) : EReal) = total V c (sOf t) cl e := by
  have hN : cfg0.N = 128 := N_0
  have ht := t.isLt
  have h' : 64 * (sOf t).val + 63 < cfg0.N := by show 64 * (t.val / 64) + 63 < cfg0.N; omega
  rw [outsAt_congr V c t.val (64 * (sOf t).val + 63) t.isLt h' (by show t.val = 64 * (t.val / 64) + 63; omega),
    outsAt_eq V c cl e (sOf t) 63 (by decide) h', upto_last 64 _ 63 (by decide)]
  rfl

/-- What a flushing point writes back is its block of the result array. -/
theorem flushed_eq (c : Dev nD) (t : Fin cfg0.N) (hf : (cfg0.win 2).flush t = true) :
    (dat0 V c).flushed 2 t = ((cfg0.win 2).blk t).view.read (Elt Ideal) (result V c) := by
  have h63 : t.val % 64 = 63 := (flush0_2 t).mp hf
  obtain ⟨-, -, -, -, e4, e5, e6⟩ := idx_facts t
  show (cfg0.win 2).cut (grid0.coords t) ((dat0 V c).after 2 t) = _
  rw [after0_2]
  funext y
  obtain ⟨cl, e, rfl⟩ : ∃ (cl : Fin 1000) (e : Fin 2048), y = ix3 (0 : Fin 1) cl e :=
    ⟨y 1, y 2, (eq_ix3 y).trans (congrArg (fun u : Fin 1 => ix3 u (y 1) (y 2)) (Subsingleton.elim (α := Fin 1) (y 0) (0 : Fin 1)))⟩
  show (outsAt0 V c t.val t.isLt (ix3 (0 : Fin 1) cl e) : EReal)
    = result V c (((cfg0.win 2).blk t).view.emb (ix3 (0 : Fin 1) cl e))
  have hidx : ((cfg0.win 2).blk t).view.emb (ix3 (0 : Fin 1) cl e) = ix3 (sOf t) cl e := by
    funext a
    apply Fin.ext
    match a with
    | ⟨0, _⟩ => show win0_2.index t (0 : Fin 3) * 1 + 1 * 0 = t.val / 64; rw [e4]; omega
    | ⟨1, _⟩ => show win0_2.index t (1 : Fin 3) * 1000 + 1 * cl.val = cl.val; rw [e5]; omega
    | ⟨2, _⟩ => show win0_2.index t (2 : Fin 3) * 2048 + 1 * e.val = e.val; rw [e6]; omega
  rw [hidx]
  exact outs_flush V c t h63 cl e

/-- Every index of the result array is in the block of the last point of its row-block. -/
theorem cover (c : Dev nD) (i : S2x1000x2048.Idx) :
    ∃ t : Fin cfg0.N, (cfg0.win 2).flush t = true ∧ i ∈ ((cfg0.win 2).blk t).view.set := by
  have hN : cfg0.N = 128 := N_0
  have hi0 : (i 0).val < 2 := (i 0).isLt
  have hi1 : (i 1).val < 1000 := (i 1).isLt
  have hi2 : (i 2).val < 2048 := (i 2).isLt
  have hlt : 64 * (i 0).val + 63 < cfg0.N := by omega
  obtain ⟨-, -, -, -, e4, e5, e6⟩ := idx_facts ⟨64 * (i 0).val + 63, hlt⟩
  refine ⟨⟨64 * (i 0).val + 63, hlt⟩, (flush0_2 _).mpr (by dsimp only; omega), ?_⟩
  show i ∈ ((View.whole main_v1).slice (win0_2.rect ⟨64 * (i 0).val + 63, hlt⟩)).set
  rw [View.set_slice_whole, Rect.mem_set_unit]
  intro a
  match a with
  | ⟨0, _⟩ =>
    show win0_2.index ⟨64 * (i 0).val + 63, hlt⟩ (0 : Fin 3) * 1 ≤ (i 0).val
      ∧ (i 0).val < win0_2.index ⟨64 * (i 0).val + 63, hlt⟩ (0 : Fin 3) * 1 + 1
    rw [e4]; dsimp only; omega
  | ⟨1, _⟩ =>
    show win0_2.index ⟨64 * (i 0).val + 63, hlt⟩ (1 : Fin 3) * 1000 ≤ (i 1).val
      ∧ (i 1).val < win0_2.index ⟨64 * (i 0).val + 63, hlt⟩ (1 : Fin 3) * 1000 + 1000
    rw [e5]; omega
  | ⟨2, _⟩ =>
    show win0_2.index ⟨64 * (i 0).val + 63, hlt⟩ (2 : Fin 3) * 2048 ≤ (i 2).val
      ∧ (i 2).val < win0_2.index ⟨64 * (i 0).val + 63, hlt⟩ (2 : Fin 3) * 2048 + 2048
    rw [e6]; omega

end R0

/-- THE REGION'S VALUE: the result array ends holding, at row-block `s`, class `cl`, column `e`, the sum over the
    64 · 512 rows of the row-block of the feature entries whose label is `cl`. -/
theorem final0 (c : Dev nD) (s : Fin 2) (cl : Fin 1000) (e : Fin 2048) :
    (((dat0 (F := Ideal) V c).arrAt 2 cfg0.N : S2x1000x2048.Idx → EReal) (ix3 s cl e) : EReal)
      = ∑ j : Fin 64, ∑ k : Fin 512,
          ((if (V c main_v0 : S1x65536.Idx → BitVec 32) (ix2 (0 : Fin 1) (blockIdx 128 512 rfl (blockIdx 2 64 rfl s j) k)) = BitVec.ofNat 32 cl.val
           then (V c main_arg0 : S65536x2048.Idx → EReal) (ix2 (blockIdx 128 512 rfl (blockIdx 2 64 rfl s j) k) e) else 0) : EReal) := by
  have h := (dat0 (F := Ideal) V c).arrAt_eq_of_cover 2 (R0.result V c) (R0.flushed_eq V c) (R0.cover c)
  exact (congrFun h (ix3 s cl e)).trans rfl

end Cert.KernelIdeal.RegionValue
end
-- ==== Proof.Region1.lean ====
/-
  The value of the scatter-sum region, read off its frame at the ideal values.

  The body runs on a grid of 2 × 64 points, point `t = 64 s + r`.  At `r = 0` it zeroes its resident output block
  [1, 1000, 2048]; at every point it adds to the block the product of the one-hot matrix of the point's 512 labels
  (1000 × 512: entry (class, k) is one when label k is the class, zero otherwise) with the point's 512 × 2048 block of
  features; after `r = 63` the block is written back as row-block `s` of the result [2, 1000, 2048].

  Over the extended reals the one-hot product at (class, column) is the sum of the feature entries of the point's
  rows whose label is the class; the running value after point `64 s + r` is the sum of these terms over the points
  `64 s, …, 64 s + r` (by induction on `r`), and after `r = 63` it is the whole sum over the 64 · 512 rows of row-block
  `s`.  The two flushing points `63` and `127` cover the result array, so it ends holding these sums.

  Everything is stated at the buffer contents `V` the region finds when it is entered.
-/
import proofs.«400535_j34479997453023_3_alg».proof.Proof.Gen.KernelIdeal.Frame
import proofs.«400535_j34479997453023_3_alg».proof.Proof.LibBlockedSum
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.RegionValue

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.LibBlockedSum
open scoped BigOperators

variable (V : (c : Dev nD) → (b : Ref sig .tc) → Buf (Elt Ideal) ((c : Thread nD τ).loc b))

namespace R1

/-! ## The payload at an index -/

/-- A widened one-bit equality test, read as a signed integer, is one or zero. -/
theorem onehot_val (a b : BitVec 32) :
    (FloatOps.sitofp (F := Ideal) .f32 ((IntOp.cmpi .eq a b).setWidth 32) : EReal) = if b = a then 1 else 0 := by
  show (((BitVec.setWidth 32 (IntOp.cmpi .eq a b)).toInt : ℝ) : EReal) = _
  by_cases h : b = a
  · have h1 : IntOp.cmpi .eq a b = 1#1 := by subst h; simp [IntOp.cmpi]
    rw [if_pos h, h1]
    have h2 : (BitVec.setWidth 32 1#1).toInt = 1 := by decide
    rw [h2]; simp
  · have h1 : IntOp.cmpi .eq a b = 0#1 := by
      show BitVec.ofBool (a == b) = 0#1
      rw [beq_eq_false_iff_ne.mpr (fun e => h e.symm)]; rfl
    rw [if_neg h, h1]
    have h2 : (BitVec.setWidth 32 0#1).toInt = 0 := by decide
    rw [h2]; simp

/-- A column broadcast along the rows: an `[a, 1]` array broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The contraction's operand indices, axis by axis: the left operand is read at (row of the result, contraction
    position), the right operand at (contraction position, column of the result). -/
theorem lhs_axis_0 (j : S1000x2048.Idx) (k : dot_S1000x512_S512x2048_S1000x2048_1_0_0_1_n_n.contr.Idx) :
    (dot_S1000x512_S512x2048_S1000x2048_1_0_0_1_n_n.lhsIdx j k 0).val = (j 0).val := rfl
theorem lhs_axis_1 (j : S1000x2048.Idx) (k : dot_S1000x512_S512x2048_S1000x2048_1_0_0_1_n_n.contr.Idx) :
    (dot_S1000x512_S512x2048_S1000x2048_1_0_0_1_n_n.lhsIdx j k 1).val = (k ⟨0, by decide⟩).val :=
  DotDims.lhsIdx_val_of_single dot_S1000x512_S512x2048_S1000x2048_1_0_0_1_n_n (cl := 1) rfl j k
theorem rhs_axis_0 (j : S1000x2048.Idx) (k : dot_S1000x512_S512x2048_S1000x2048_1_0_0_1_n_n.contr.Idx) :
    (dot_S1000x512_S512x2048_S1000x2048_1_0_0_1_n_n.rhsIdx j k 0).val = (k ⟨0, by decide⟩).val :=
  DotDims.rhsIdx_val_of_single dot_S1000x512_S512x2048_S1000x2048_1_0_0_1_n_n (cr := 0) rfl j k
theorem rhs_axis_1 (j : S1000x2048.Idx) (k : dot_S1000x512_S512x2048_S1000x2048_1_0_0_1_n_n.contr.Idx) :
    (dot_S1000x512_S512x2048_S1000x2048_1_0_0_1_n_n.rhsIdx j k 1).val = (j 1).val := rfl

/-- The body's payload at an index of the output block: the block's running value there plus the one-hot row of the
    labels against the feature column, that is the sum of the feature entries whose label is the row's class. -/
theorem pay2_apply (v3 : IVec S1x512 32) (v12 : FVec Ideal S512x2048 .f32) (v14 : FVec Ideal S1x1000x2048 .f32)
    (cl : Fin 1000) (e : Fin 2048) :
    (k1_pay2 (F := Ideal) v3 v12 v14 (ix3 (0 : Fin 1) cl e) : EReal)
      = v14 (ix3 (0 : Fin 1) cl e) + ∑ k : Fin 512, (if v3 (ix2 (0 : Fin 1) k) = BitVec.ofNat 32 cl.val then v12 (ix2 k e) else 0) := by
  unfold k1_pay2
  refine (shapeCast_ab_1ab_apply _ _ (0 : Fin 1) cl e).trans ?_
  refine (addf_apply _ _ _).trans ?_
  refine congrArg₂ (· + ·) (shapeCast_1ab_ab_apply v14 _ cl e) ?_
  refine (Ideal.matmul_constant_zero_apply dot_S1000x512_S512x2048_S1000x2048_1_0_0_1_n_n none _ _ (ix2 cl e)).trans ?_
  refine (Equiv.sum_comp (contrEquiv1 dot_S1000x512_S512x2048_S1000x2048_1_0_0_1_n_n 512 rfl rfl).symm _).symm.trans ?_
  refine Finset.sum_congr rfl fun k _ => ?_
  have hl : dot_S1000x512_S512x2048_S1000x2048_1_0_0_1_n_n.lhsIdx (ix2 cl e)
      ((contrEquiv1 dot_S1000x512_S512x2048_S1000x2048_1_0_0_1_n_n 512 rfl rfl).symm k) = ix2 cl k :=
    funext fun a => Fin.ext (by
      match a with
      | ⟨0, _⟩ => exact lhs_axis_0 _ _
      | ⟨1, _⟩ => exact (lhs_axis_1 _ _).trans (contrEquiv1_symm_val _ 512 rfl rfl k))
  have hr : dot_S1000x512_S512x2048_S1000x2048_1_0_0_1_n_n.rhsIdx (ix2 cl e)
      ((contrEquiv1 dot_S1000x512_S512x2048_S1000x2048_1_0_0_1_n_n 512 rfl rfl).symm k) = ix2 k e :=
    funext fun a => Fin.ext (by
      match a with
      | ⟨0, _⟩ => exact (rhs_axis_0 _ _).trans (contrEquiv1_symm_val _ 512 rfl rfl k)
      | ⟨1, _⟩ => exact rhs_axis_1 _ _)
  rw [hl, hr]
  have e1 : broadcastTo S1000x512 (iota .tc S1000x1 32 [0] iota_S1000x1_d0_w32) broadcasts_S1000x1_S1000x512 (ix2 cl k)
      = BitVec.ofNat 32 cl.val :=
    (broadcastTo_a1_ab_apply _ _ cl k).trans (iota_single_apply .tc S1000x1 32 0 _ (ix2 cl (0 : Fin 1)))
  have e2 : broadcastTo S1000x512 (shapeCast S1x512 v3 shapeCasts_S1x512_S1x512) broadcasts_S1x512_S1000x512 (ix2 cl k)
      = v3 (ix2 (0 : Fin 1) k) :=
    (broadcastTo_1b_ab_apply _ _ cl k).trans (congrFun (shapeCast_self v3 _) _)
  show FloatOps.sitofp (F := Ideal) .f32 ((IntOp.cmpi .eq
        (broadcastTo S1000x512 (iota .tc S1000x1 32 [0] iota_S1000x1_d0_w32) broadcasts_S1000x1_S1000x512 (ix2 cl k))
        (broadcastTo S1000x512 (shapeCast S1x512 v3 shapeCasts_S1x512_S1x512) broadcasts_S1x512_S1000x512 (ix2 cl k))).setWidth 32)
      * v12 (ix2 k e) = _
  rw [e1, e2, onehot_val]
  by_cases hq : v3 (ix2 (0 : Fin 1) k) = BitVec.ofNat 32 cl.val
  · rw [if_pos hq, if_pos hq, one_mul]
  · rw [if_neg hq, if_neg hq, zero_mul]

/-! ## What each case of the body leaves in the output block -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Away from a row-block's first point the body leaves the payload of the labels block, the features block and the
    block's running value. -/
theorem out_B (c : Dev nD) (i : grid1.Coords) (a2 : Memref sig .tc .vmem S512x2048 .f32) (h2 : a2.IsWhole)
    (a3 : Memref sig .tc .vmem S1x512 .i32) (h3 : a3.IsWhole) (a4 : Memref sig .tc .vmem S1x1000x2048 .f32) (h4 : a4.IsWhole)
    (hc : ¬cond1_0 i) (x0 : Vec F S512x2048 .f32) (x1 : Vec F S1x512 .i32) (xo : Vec F S1x1000x2048 .f32) :
    out1_B_2 c i a2 h2 a3 h3 a4 h4 hc x0 x1 xo = k1_pay2 x1 x0 xo := by
  unfold out1_B_2
  rw [View.read_writes_eq_canon _ _ _ (cover1_B_2 c i a2 h2 a3 h3 a4 h4 hc x0 x1 xo)]
  unfold kernelRun1_B
  dsimp only
  sl_unfold_words
  rw [View.canon_unit_zero hz3]
  simp only [View.readAt_eq_ld, h2.read_unread, h3.read_unread, h4.read_unread, View.ld_unit_zero (S := S512x2048) hz2,
    View.ld_unit_zero (S := S1x512) hz2, View.ld_unit_zero (S := S1x1000x2048) hz3]

/-- At a row-block's first point the body first stores the zero block and then leaves the payload over it. -/
theorem out_A (c : Dev nD) (i : grid1.Coords) (a2 : Memref sig .tc .vmem S512x2048 .f32) (h2 : a2.IsWhole)
    (a3 : Memref sig .tc .vmem S1x512 .i32) (h3 : a3.IsWhole) (a4 : Memref sig .tc .vmem S1x1000x2048 .f32) (h4 : a4.IsWhole)
    (hc : cond1_0 i) (x0 : Vec F S512x2048 .f32) (x1 : Vec F S1x512 .i32) :
    out1_A_2 c i a2 h2 a3 h3 a4 h4 hc x0 x1 = k1_pay2 x1 x0 k1_pay1 := by
  unfold out1_A_2
  rw [View.read_writes_eq_canon _ _ _ (cover1_A_2 c i a2 h2 a3 h3 a4 h4 hc x0 x1)]
  unfold kernelRun1_A
  dsimp only
  sl_unfold_words
  rw [View.canon_cons_unit_zero (S := S1x1000x2048) hz3, View.readCov_unit_zero (S := S1x1000x2048) _ hz3]
  simp only [View.readAt_eq_ld, h2.read_unread, h3.read_unread, View.ld_unit_zero (S := S512x2048) hz2,
    View.ld_unit_zero (S := S1x512) hz2]

end Pieces

/-! ## The blocks the windows hand the body, read off the arrays -/

/-- The printed index maps, decided over the grid: the features window steps along the rows and the labels window along
    the columns with the point, the output window with the point's row-block. -/
theorem idx_facts : ∀ t : Fin cfg1.N, win1_0.index t (0 : Fin 2) = t.val ∧ win1_0.index t (1 : Fin 2) = 0
    ∧ win1_1.index t (0 : Fin 2) = 0 ∧ win1_1.index t (1 : Fin 2) = t.val
    ∧ win1_2.index t (0 : Fin 3) = t.val / 64 ∧ win1_2.index t (1 : Fin 3) = 0 ∧ win1_2.index t (2 : Fin 3) = 0 :=
  (by decide +kernel : ∀ t : Fin grid1.N, win1_0.index t (0 : Fin 2) = t.val ∧ win1_0.index t (1 : Fin 2) = 0
    ∧ win1_1.index t (0 : Fin 2) = 0 ∧ win1_1.index t (1 : Fin 2) = t.val
    ∧ win1_2.index t (0 : Fin 3) = t.val / 64 ∧ win1_2.index t (1 : Fin 3) = 0 ∧ win1_2.index t (2 : Fin 3) = 0)

/-- The features and the labels as the region finds them, and the blocks of them a point is handed. -/
abbrev feat (c : Dev nD) : S65536x2048.Idx → EReal := V c main_arg1
abbrev lab (c : Dev nD) : S1x65536.Idx → BitVec 32 := V c main_v3
abbrev fblk (c : Dev nD) (t : Fin cfg1.N) : FVec Ideal S512x2048 .f32 := iblk1 V c 0 t
abbrev lblk (c : Dev nD) (t : Fin cfg1.N) : IVec S1x512 32 := iblk1 V c 1 t

/-- A point of the grid as a number below 128. -/
def pt (t : Fin cfg1.N) : Fin 128 := ⟨t.val, lt_of_lt_of_eq t.isLt N_1⟩

/-- Row `k` of the features block at point `t` is row `512 t + k` of the features. -/
theorem fblk_apply (c : Dev nD) (t : Fin cfg1.N) (k : Fin 512) (e : Fin 2048) :
    fblk V c t (ix2 k e) = feat V c (ix2 (blockIdx 128 512 rfl (pt t) k) e) := by
  obtain ⟨e0, e1, -⟩ := idx_facts t
  unfold fblk iblk1
  rw [View.read_apply]
  show V c main_arg1 _ = V c main_arg1 _
  congr 1
  funext a
  apply Fin.ext
  match a with
  | ⟨0, _⟩ => show win1_0.index t (0 : Fin 2) * 512 + 1 * k.val = t.val * 512 + k.val; rw [e0]; omega
  | ⟨1, _⟩ => show win1_0.index t (1 : Fin 2) * 2048 + 1 * e.val = e.val; rw [e1]; omega

/-- Column `k` of the labels block at point `t` is column `512 t + k` of the labels. -/
theorem lblk_apply (c : Dev nD) (t : Fin cfg1.N) (k : Fin 512) :
    lblk V c t (ix2 (0 : Fin 1) k) = lab V c (ix2 (0 : Fin 1) (blockIdx 128 512 rfl (pt t) k)) := by
  obtain ⟨-, -, e2, e3, -⟩ := idx_facts t
  unfold lblk iblk1
  rw [View.read_apply]
  show V c main_v3 _ = V c main_v3 _
  congr 1
  funext a
  apply Fin.ext
  match a with
  | ⟨0, _⟩ => show win1_1.index t (0 : Fin 2) * 1 + 1 * 0 = 0; rw [e2]
  | ⟨1, _⟩ => show win1_1.index t (1 : Fin 2) * 512 + 1 * k.val = t.val * 512 + k.val; rw [e3]; omega

/-! ## The running value of the output block -/

/-- What one point adds at class `cl`, column `e`: the feature entries of its 512 rows whose label is `cl`. -/
def term (c : Dev nD) (cl : Fin 1000) (e : Fin 2048) (p : Fin 128) : EReal :=
  ∑ k : Fin 512, (if lab V c (ix2 (0 : Fin 1) (blockIdx 128 512 rfl p k)) = BitVec.ofNat 32 cl.val
    then feat V c (ix2 (blockIdx 128 512 rfl p k) e) else 0)

/-- The payload at a point, over any running value: the running value plus the point's term. -/
theorem pay2_point (c : Dev nD) (t : Fin cfg1.N) (acc : FVec Ideal S1x1000x2048 .f32) (cl : Fin 1000) (e : Fin 2048) :
    (k1_pay2 (F := Ideal) (lblk V c t) (fblk V c t) acc (ix3 (0 : Fin 1) cl e) : EReal)
      = acc (ix3 (0 : Fin 1) cl e) + term V c cl e (pt t) := by
  refine (pay2_apply (lblk V c t) (fblk V c t) acc cl e).trans ?_
  refine congrArg (acc (ix3 (0 : Fin 1) cl e) + ·) ?_
  unfold term
  refine Finset.sum_congr rfl fun k _ => ?_
  rw [lblk_apply V c t k, fblk_apply V c t k e]

/-- The zero block reads zero. -/
theorem pay1_apply (cl : Fin 1000) (e : Fin 2048) : (k1_pay1 (F := Ideal) (ix3 (0 : Fin 1) cl e) : EReal) = 0 := by
  unfold k1_pay1
  refine (shapeCast_ab_1ab_apply _ _ (0 : Fin 1) cl e).trans ?_
  exact Ideal.ofBits_zero_f32

/-- The running value does not depend on how the point's number is written. -/
theorem outsAt_congr (c : Dev nD) (n n' : ℕ) (h : n < cfg1.N) (h' : n' < cfg1.N) (e : n = n') :
    outsAt1 V c n h = outsAt1 V c n' h' := by subst e; rfl

/-- THE INVARIANT. After point `64 s + r` the output block holds, at class `cl` and column `e`, the terms of the
    points `64 s, …, 64 s + r` of its row-block added up. -/
theorem outsAt_eq (c : Dev nD) (cl : Fin 1000) (e : Fin 2048) (s : Fin 2) :
    ∀ (r : ℕ) (hr : r < 64) (h : 64 * s.val + r < cfg1.N),
      (outsAt1 V c (64 * s.val + r) h (ix3 (0 : Fin 1) cl e) : EReal)
        = upto 64 (fun j : Fin 64 => term V c cl e (blockIdx 2 64 rfl s j)) r
  | 0, hr, h => by
    have h0 : (⟨64 * s.val + 0, h⟩ : Fin cfg1.N).val % 64 = 0 := by dsimp only; omega
    refine (congrFun (outsAt1_A V c ⟨64 * s.val + 0, h⟩ h0) (ix3 (0 : Fin 1) cl e)).trans ?_
    refine (congrFun (out_A (F := Ideal) c (grid1.coords ⟨64 * s.val + 0, h⟩) (ms1_0 ⟨64 * s.val + 0, h⟩) (hs1_0 ⟨64 * s.val + 0, h⟩)
      (ms1_1 ⟨64 * s.val + 0, h⟩) (hs1_1 ⟨64 * s.val + 0, h⟩) (ms1_2 ⟨64 * s.val + 0, h⟩) (hs1_2 ⟨64 * s.val + 0, h⟩)
      ((hcond1_0 ⟨64 * s.val + 0, h⟩).mpr h0) (iblk1 V c 0 ⟨64 * s.val + 0, h⟩) (iblk1 V c 1 ⟨64 * s.val + 0, h⟩))
      (ix3 (0 : Fin 1) cl e)).trans ?_
    refine (pay2_point V c ⟨64 * s.val + 0, h⟩ k1_pay1 cl e).trans ?_
    rw [pay1_apply, zero_add, upto_zero 64 _ (by decide)]
    exact congrArg (term V c cl e) (Fin.ext (by show 64 * s.val + 0 = s.val * 64 + 0; omega))
  | r + 1, hr, h => by
    have hB : ¬(⟨64 * s.val + (r + 1), h⟩ : Fin cfg1.N).val % 64 = 0 := by dsimp only; omega
    have hN : cfg1.N = 128 := N_1
    have h' : 64 * s.val + r < cfg1.N := by omega
    refine (congrFun (outsAt1_B V c ⟨64 * s.val + (r + 1), h⟩ hB) (ix3 (0 : Fin 1) cl e)).trans ?_
    refine (congrFun (out_B (F := Ideal) c (grid1.coords ⟨64 * s.val + (r + 1), h⟩) (ms1_0 ⟨64 * s.val + (r + 1), h⟩) (hs1_0 ⟨64 * s.val + (r + 1), h⟩)
      (ms1_1 ⟨64 * s.val + (r + 1), h⟩) (hs1_1 ⟨64 * s.val + (r + 1), h⟩) (ms1_2 ⟨64 * s.val + (r + 1), h⟩) (hs1_2 ⟨64 * s.val + (r + 1), h⟩)
      (fun hh => hB ((hcond1_0 ⟨64 * s.val + (r + 1), h⟩).mp hh)) (iblk1 V c 0 ⟨64 * s.val + (r + 1), h⟩) (iblk1 V c 1 ⟨64 * s.val + (r + 1), h⟩)
      (outsAt1 V c ((⟨64 * s.val + (r + 1), h⟩ : Fin cfg1.N).val - 1) (Nat.lt_of_le_of_lt (Nat.sub_le _ _) (⟨64 * s.val + (r + 1), h⟩ : Fin cfg1.N).isLt)))
      (ix3 (0 : Fin 1) cl e)).trans ?_
    refine (pay2_point V c ⟨64 * s.val + (r + 1), h⟩ _ cl e).trans ?_
    rw [outsAt_congr V c _ (64 * s.val + r) _ h' (by dsimp only; omega), outsAt_eq c cl e s r (by omega) h',
      upto_succ 64 _ r hr]
    exact congrArg (_ + ·) (congrArg (term V c cl e) (Fin.ext (by show 64 * s.val + (r + 1) = s.val * 64 + (r + 1); omega)))

/-! ## The result array -/

/-- The row-block a point belongs to. -/
def sOf (t : Fin cfg1.N) : Fin 2 := ⟨t.val / 64, by have := lt_of_lt_of_eq t.isLt N_1; omega⟩

/-- The scatter sum of row-block `s` at class `cl`, column `e`: the terms of all its 64 points. -/
def total (c : Dev nD) (s : Fin 2) (cl : Fin 1000) (e : Fin 2048) : EReal :=
  ∑ j : Fin 64, term V c cl e (blockIdx 2 64 rfl s j)

/-- The result array: the scatter sums, row-block by row-block. -/
abbrev result (c : Dev nD) : Buf (Elt Ideal) ((c : Thread nD τ).loc main_v4) :=
  (fun (i : S2x1000x2048.Idx) => total V c (i 0) (i 1) (i 2) : S2x1000x2048.Idx → EReal)

/-- After the last point of a row-block the output block holds the row-block's scatter sum. -/
theorem outs_flush (c : Dev nD) (t : Fin cfg1.N) (h63 : t.val % 64 = 63) (cl : Fin 1000) (e : Fin 2048) :
    (outsAt1 V c t.val t.isLt (ix3 (0 : Fin 1) cl e) : EReal) = total V c (sOf t) cl e := by
  have hN : cfg1.N = 128 := N_1
  have ht := t.isLt
  have h' : 64 * (sOf t).val + 63 < cfg1.N := by show 64 * (t.val / 64) + 63 < cfg1.N; omega
  rw [outsAt_congr V c t.val (64 * (sOf t).val + 63) t.isLt h' (by show t.val = 64 * (t.val / 64) + 63; omega),
    outsAt_eq V c cl e (sOf t) 63 (by decide) h', upto_last 64 _ 63 (by decide)]
  rfl

/-- What a flushing point writes back is its block of the result array. -/
theorem flushed_eq (c : Dev nD) (t : Fin cfg1.N) (hf : (cfg1.win 2).flush t = true) :
    (dat1 V c).flushed 2 t = ((cfg1.win 2).blk t).view.read (Elt Ideal) (result V c) := by
  have h63 : t.val % 64 = 63 := (flush1_2 t).mp hf
  obtain ⟨-, -, -, -, e4, e5, e6⟩ := idx_facts t
  show (cfg1.win 2).cut (grid1.coords t) ((dat1 V c).after 2 t) = _
  rw [after1_2]
  funext y
  obtain ⟨cl, e, rfl⟩ : ∃ (cl : Fin 1000) (e : Fin 2048), y = ix3 (0 : Fin 1) cl e :=
    ⟨y 1, y 2, (eq_ix3 y).trans (congrArg (fun u : Fin 1 => ix3 u (y 1) (y 2)) (Subsingleton.elim (α := Fin 1) (y 0) (0 : Fin 1)))⟩
  show (outsAt1 V c t.val t.isLt (ix3 (0 : Fin 1) cl e) : EReal)
    = result V c (((cfg1.win 2).blk t).view.emb (ix3 (0 : Fin 1) cl e))
  have hidx : ((cfg1.win 2).blk t).view.emb (ix3 (0 : Fin 1) cl e) = ix3 (sOf t) cl e := by
    funext a
    apply Fin.ext
    match a with
    | ⟨0, _⟩ => show win1_2.index t (0 : Fin 3) * 1 + 1 * 0 = t.val / 64; rw [e4]; omega
    | ⟨1, _⟩ => show win1_2.index t (1 : Fin 3) * 1000 + 1 * cl.val = cl.val; rw [e5]; omega
    | ⟨2, _⟩ => show win1_2.index t (2 : Fin 3) * 2048 + 1 * e.val = e.val; rw [e6]; omega
  rw [hidx]
  exact outs_flush V c t h63 cl e

/-- Every index of the result array is in the block of the last point of its row-block. -/
theorem cover (c : Dev nD) (i : S2x1000x2048.Idx) :
    ∃ t : Fin cfg1.N, (cfg1.win 2).flush t = true ∧ i ∈ ((cfg1.win 2).blk t).view.set := by
  have hN : cfg1.N = 128 := N_1
  have hi0 : (i 0).val < 2 := (i 0).isLt
  have hi1 : (i 1).val < 1000 := (i 1).isLt
  have hi2 : (i 2).val < 2048 := (i 2).isLt
  have hlt : 64 * (i 0).val + 63 < cfg1.N := by omega
  obtain ⟨-, -, -, -, e4, e5, e6⟩ := idx_facts ⟨64 * (i 0).val + 63, hlt⟩
  refine ⟨⟨64 * (i 0).val + 63, hlt⟩, (flush1_2 _).mpr (by dsimp only; omega), ?_⟩
  show i ∈ ((View.whole main_v4).slice (win1_2.rect ⟨64 * (i 0).val + 63, hlt⟩)).set
  rw [View.set_slice_whole, Rect.mem_set_unit]
  intro a
  match a with
  | ⟨0, _⟩ =>
    show win1_2.index ⟨64 * (i 0).val + 63, hlt⟩ (0 : Fin 3) * 1 ≤ (i 0).val
      ∧ (i 0).val < win1_2.index ⟨64 * (i 0).val + 63, hlt⟩ (0 : Fin 3) * 1 + 1
    rw [e4]; dsimp only; omega
  | ⟨1, _⟩ =>
    show win1_2.index ⟨64 * (i 0).val + 63, hlt⟩ (1 : Fin 3) * 1000 ≤ (i 1).val
      ∧ (i 1).val < win1_2.index ⟨64 * (i 0).val + 63, hlt⟩ (1 : Fin 3) * 1000 + 1000
    rw [e5]; omega
  | ⟨2, _⟩ =>
    show win1_2.index ⟨64 * (i 0).val + 63, hlt⟩ (2 : Fin 3) * 2048 ≤ (i 2).val
      ∧ (i 2).val < win1_2.index ⟨64 * (i 0).val + 63, hlt⟩ (2 : Fin 3) * 2048 + 2048
    rw [e6]; omega

end R1

/-- THE REGION'S VALUE: the result array ends holding, at row-block `s`, class `cl`, column `e`, the sum over the
    64 · 512 rows of the row-block of the feature entries whose label is `cl`. -/
theorem final1 (c : Dev nD) (s : Fin 2) (cl : Fin 1000) (e : Fin 2048) :
    (((dat1 (F := Ideal) V c).arrAt 2 cfg1.N : S2x1000x2048.Idx → EReal) (ix3 s cl e) : EReal)
      = ∑ j : Fin 64, ∑ k : Fin 512,
          ((if (V c main_v3 : S1x65536.Idx → BitVec 32) (ix2 (0 : Fin 1) (blockIdx 128 512 rfl (blockIdx 2 64 rfl s j) k)) = BitVec.ofNat 32 cl.val
           then (V c main_arg1 : S65536x2048.Idx → EReal) (ix2 (blockIdx 128 512 rfl (blockIdx 2 64 rfl s j) k) e) else 0) : EReal) := by
  have h := (dat1 (F := Ideal) V c).arrAt_eq_of_cover 2 (R1.result V c) (R1.flushed_eq V c) (R1.cover c)
  exact (congrFun h (ix3 s cl e)).trans rfl

end Cert.KernelIdeal.RegionValue
end
-- ==== Proof.KernelValue.lean ====
/-
  The kernel program's run with its result named as the reference names its own: the two launches' summed halves are
  the reference's per-class row sums (each launch's array is, half by half, the blocked sums of the labelled rows; the
  launches find the features as launched and the labels as one row), and the closing stretches are the shared tail.
-/
import proofs.«400535_j34479997453023_3_alg».proof.Proof.KernelRun
import proofs.«400535_j34479997453023_3_alg».proof.Proof.KernelTail
import proofs.«400535_j34479997453023_3_alg».proof.Proof.SumsEq
import proofs.«400535_j34479997453023_3_alg».proof.Proof.RefValue
import proofs.«400535_j34479997453023_3_alg».proof.Proof.Region0
import proofs.«400535_j34479997453023_3_alg».proof.Proof.Region1

set_option maxRecDepth 16384

noncomputable section

namespace Cert.KernelIdeal.KValue

open Cert.KernelIdeal Cert.KernelIdeal.Gen Cert.KernelIdeal.HostSide
open Idealize.ShloMosaic Idealize.ShloMosaic.TcCoe Idealize.SL.Sem

variable (m : (ℓ : Loc nD τ sig) → Buf (Elt Ideal) ℓ) (ρ : Dev nD → PrngReg)

/-- The first launch's summed halves are the reference's row sums of the first features under the first labels. -/
theorem sums0 (c : Dev nD) : halvesSum ((dat0 (V1 m ρ) c).arrAt 2 cfg0.N)
    = Cert.ReferenceIdeal.RefValue.rowSums (F := Ideal) (m ((c.tc : Thread nD τ).loc main_arg0)) (m ((c.tc : Thread nD τ).loc main_arg4)) := by
  refine Cert.SumsEq.sums_eq _ _ _ (fun s cl e => ?_)
  have h := Cert.KernelIdeal.RegionValue.final0 (V1 m ρ) c s cl e
  rw [V1_v0, V1_arg0] at h
  exact h

/-- The second launch's summed halves are the reference's row sums of the second features under the second labels. -/
theorem sums1 (c : Dev nD) : halvesSum ((dat1 (V3 m ρ) c).arrAt 2 cfg1.N)
    = Cert.ReferenceIdeal.RefValue.rowSums (F := Ideal) (m ((c.tc : Thread nD τ).loc main_arg1)) (m ((c.tc : Thread nD τ).loc main_arg5)) := by
  refine Cert.SumsEq.sums_eq _ _ _ (fun s cl e => ?_)
  have h := Cert.KernelIdeal.RegionValue.final1 (V3 m ρ) c s cl e
  rw [V3_v3, V3_arg1] at h
  exact h

/-- Every weakly fair execution of the kernel program at the ideal values terminates with the result array at the
    stacked updates, spelt as the reference spells them, and the arguments unchanged. -/
theorem run : θ_run defs (onTc (τ := τ) (main (F := Ideal))) ⟨m, fun _ => 0, ρ⟩ fun r => ∀ c : Dev nD,
      r.2.mem ((c.tc : Thread nD τ).loc main_v44)
        = Cert.ReferenceIdeal.Tail.stack (F := Ideal)
            (Cert.ReferenceIdeal.Tail.blend (F := Ideal) (Cert.ReferenceIdeal.RefValue.rowSums (F := Ideal) (m ((c.tc : Thread nD τ).loc main_arg0)) (m ((c.tc : Thread nD τ).loc main_arg4))) (m ((c.tc : Thread nD τ).loc main_arg2)) (m ((c.tc : Thread nD τ).loc main_arg4)))
            (Cert.ReferenceIdeal.Tail.blend (F := Ideal) (Cert.ReferenceIdeal.RefValue.rowSums (F := Ideal) (m ((c.tc : Thread nD τ).loc main_arg1)) (m ((c.tc : Thread nD τ).loc main_arg5))) (m ((c.tc : Thread nD τ).loc main_arg3)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by
      rw [W9_result, sums0, sums1, Cert.Tail.blend_eq, Cert.Tail.blend_eq, Cert.Tail.stack_eq]), (h c).2⟩)
    (Cert.KernelIdeal.GenR.run_result m ρ)

end Cert.KernelIdeal.KValue

end
-- ==== Proof.lean ====
/-
  The certificate of the one-hot scatter-sum kernel against its segment-sum reference.

  The kernel updates two memory banks of 1000 classes × 2048 features from 65536 labelled feature rows each.  Per
  modality it computes the per-class row sums by a matrix product: on a grid of 2 halves × 64 row blocks of 512 rows, a
  resident [1000, 2048] block is zeroed at a half's first block and then, block by block, gains
  `onehot(labels block) · features block`, where `onehot (c, k)` is 1 when row `k`'s label is the word `c` and 0
  otherwise (the change to bf16 on the way into the matrix unit is the identity on extended reals).  The two halves are
  added on the host.  The reference computes the same sums by one accumulating scatter of all 65536 rows.  Both then
  apply the same host operations: count the rows of each label, divide, blend with weights 0.8 / 0.2 where the label
  occurs, keep the bank's row where it does not, and stack the two banks.

  Over the extended reals `1 · x = x`, `0 · x = 0` and `0 + x = x` hold for every `x`, and finite sums are commutative
  and associative, so the blocked sum of the products is the scatter's sum of the rows carrying the label: no
  finiteness of the inputs is needed, and the precondition is never opened.  A label outside `0 … 999` matches no class
  in the kernel's comparison and is dropped by the scatter, so the two agree there as well.

  The three frames: the two kernel programs' are the generated frame certificates; the reference's is its run with the
  result dropped.  The ideal pass rewrote nothing, so the preservation claim is `True`.
-/
import proofs.«400535_j34479997453023_3_alg».proof.Defs
import proofs.«400535_j34479997453023_3_alg».proof.Proof.Gen.Kernel
import proofs.«400535_j34479997453023_3_alg».proof.Proof.Gen.Kernel.Skeleton
import proofs.«400535_j34479997453023_3_alg».proof.Proof.Gen.Kernel.Launch
import proofs.«400535_j34479997453023_3_alg».proof.Proof.Gen.Kernel.Points
import proofs.«400535_j34479997453023_3_alg».proof.Proof.Gen.Kernel.Frame
import proofs.«400535_j34479997453023_3_alg».proof.Proof.Gen.KernelIdeal
import proofs.«400535_j34479997453023_3_alg».proof.Proof.Gen.KernelIdeal.Skeleton
import proofs.«400535_j34479997453023_3_alg».proof.Proof.Gen.KernelIdeal.Launch
import proofs.«400535_j34479997453023_3_alg».proof.Proof.Gen.KernelIdeal.Points
import proofs.«400535_j34479997453023_3_alg».proof.Proof.Gen.KernelIdeal.Frame
import proofs.«400535_j34479997453023_3_alg».proof.Proof.Gen.ReferenceIdeal
import proofs.«400535_j34479997453023_3_alg».proof.Proof.Gen.Pre_finite_inputs
import proofs.«400535_j34479997453023_3_alg».proof.Proof.RefValue
import proofs.«400535_j34479997453023_3_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.RefValue.run (F := Ideal) m ρ)

/-- At the ideal values, from memories agreeing on the arguments, both programs end with the result array at the two
    banks' updates stacked, each the shared function of the per-class row sums of that modality's features, and the
    kernel's blocked one-hot sums are those row sums. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
